-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2000x64 : Shape := ⟨3, ![32, 2000, 64]⟩
abbrev S2000x32 : Shape := ⟨2, ![2000, 32]⟩
abbrev S128x2080 : Shape := ⟨2, ![128, 2080]⟩
abbrev S128 : Shape := ⟨1, ![128]⟩
abbrev S_ : Shape := ⟨0, ![]⟩

class Facts : Prop where
  bcast_S_S32x2000x64 : S_.BroadcastsInDim S32x2000x64 (![] : Fin 0 → Fin S32x2000x64.rank)
  reducesTo_S32x2000x64_S_d0_1_2 : S32x2000x64.ReducesTo [0, 1, 2] S_
  h_S_ : 0 < S_.numel
  bcast_S_S2000x32 : S_.BroadcastsInDim S2000x32 (![] : Fin 0 → Fin S2000x32.rank)
  reducesTo_S2000x32_S_d0_1 : S2000x32.ReducesTo [0, 1] S_
  bcast_S_S128x2080 : S_.BroadcastsInDim S128x2080 (![] : Fin 0 → Fin S128x2080.rank)
  reducesTo_S128x2080_S_d0_1 : S128x2080.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg1 : IVec S2000x32 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S2000x32 32 := broadcastInDim S2000x32 ![] bcast_S_S2000x32 main_c_6
  let main_v20 : IVec S2000x32 1 := cmpi .sge main_arg1 main_v19
  let main_c_7 : IVec S_ 1 := constantI S_ 1 1#1
  let main_v21 : IVec S_ 1 := (fun x v => Host.reduce IntOp.andi x v reducesTo_S2000x32_S_d0_1 h_S_) main_v20 main_c_7
  let main_v22 : IVec S_ 1 := andi main_v18 main_v21
  let main_c_8 : IVec S_ 32 := constantI S_ 32 2000#32
  let main_v23 : IVec S2000x32 32 := broadcastInDim S2000x32 ![] bcast_S_S2000x32 main_c_8
  let main_v24 : IVec S2000x32 1 := cmpi .slt main_arg1 main_v23
  let main_c_9 : IVec S_ 1 := constantI S_ 1 1#1
  let main_v25 : IVec S_ 1 := (fun x v => Host.reduce IntOp.andi x v reducesTo_S2000x32_S_d0_1 h_S_) main_v24 main_c_9
  let main_v26 : IVec S_ 1 := andi main_v22 main_v25
  main_v26

def fn {F : FTy → Type} [FloatOps F] (main_arg0 : FVec F S32x2000x64 .f32) (main_arg1 : IVec S2000x32 32) (main_arg2 : FVec F S2000x32 .f32) (main_arg3 : FVec F S128x2080 .f32) (main_arg4 : FVec F S128 .f32) : IVec S_ 1 :=
  let main_v0 : FVec F S32x2000x64 .f32 := Host.absf main_arg0
  let main_cst : FVec F S_ .f32 := constant S_ .f32 0x7F800000#32
  let main_v1 : FVec F S32x2000x64 .f32 := broadcastInDim S32x2000x64 ![] bcast_S_S32x2000x64 main_cst
  let main_v2 : IVec S32x2000x64 1 := cmpf .olt main_v0 main_v1
  let main_c : IVec S_ 1 := constantI S_ 1 1#1
  let main_v3 : IVec S_ 1 := (fun x v => Host.reduce IntOp.andi x v reducesTo_S32x2000x64_S_d0_1_2 h_S_) main_v2 main_c
  let main_v4 : FVec F S2000x32 .f32 := Host.absf main_arg2
  let main_cst_0 : FVec F S_ .f32 := constant S_ .f32 0x7F800000#32
  let main_v5 : FVec F S2000x32 .f32 := broadcastInDim S2000x32 ![] bcast_S_S2000x32 main_cst_0
  let main_v6 : IVec S2000x32 1 := cmpf .olt main_v4 main_v5
  let main_c_1 : IVec S_ 1 := constantI S_ 1 1#1
  let main_v7 : IVec S_ 1 := (fun x v => Host.reduce IntOp.andi x v reducesTo_S2000x32_S_d0_1 h_S_) main_v6 main_c_1
  let main_v8 : IVec S_ 1 := andi main_v3 main_v7
  let main_v9 : FVec F S128x2080 .f32 := Host.absf main_arg3
  let main_cst_2 : FVec F S_ .f32 := constant S_ .f32 0x7F800000#32
  let main_v10 : FVec F S128x2080 .f32 := broadcastInDim S128x2080 ![] bcast_S_S128x2080 main_cst_2
  let main_v11 : IVec S128x2080 1 := cmpf .olt main_v9 main_v10
  let main_c_3 : IVec S_ 1 := constantI S_ 1 1#1
  let main_v12 : IVec S_ 1 := (fun x v => Host.reduce IntOp.andi x v reducesTo_S128x2080_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S32x2000x64 : Shape := ⟨3, ![32, 2000, 64]⟩
abbrev S2000x32 : Shape := ⟨2, ![2000, 32]⟩
abbrev S128x2080 : Shape := ⟨2, ![128, 2080]⟩
abbrev S128 : Shape := ⟨1, ![128]⟩
abbrev S128x32x65 : Shape := ⟨3, ![128, 32, 65]⟩
abbrev S128x32x64 : Shape := ⟨3, ![128, 32, 64]⟩
abbrev S128x32x1 : Shape := ⟨3, ![128, 32, 1]⟩
abbrev S128x32 : Shape := ⟨2, ![128, 32]⟩
abbrev S32x64x128 : Shape := ⟨3, ![32, 64, 128]⟩
abbrev S32x128 : Shape := ⟨2, ![32, 128]⟩
abbrev S1x128 : Shape := ⟨2, ![1, 128]⟩
abbrev S32x2000x128 : Shape := ⟨3, ![32, 2000, 128]⟩
abbrev S1x2000x64 : Shape := ⟨3, ![1, 2000, 64]⟩
abbrev S200x32 : Shape := ⟨2, ![200, 32]⟩
abbrev S1x200x128 : Shape := ⟨3, ![1, 200, 128]⟩
abbrev S2000x64 : Shape := ⟨2, ![2000, 64]⟩
abbrev S1x2000 : Shape := ⟨2, ![1, 2000]⟩
abbrev S200x128 : Shape := ⟨2, ![200, 128]⟩
abbrev S200x1 : Shape := ⟨2, ![200, 1]⟩
abbrev S200x2000 : Shape := ⟨2, ![200, 2000]⟩
abbrev S200x64 : Shape := ⟨2, ![200, 64]⟩
abbrev S1x64x128 : Shape := ⟨3, ![1, 64, 128]⟩
abbrev S64x128 : Shape := ⟨2, ![64, 128]⟩

abbrev nBuf : Space → Nat
  | .hbm => 16
  | .vmem => 11
  | .smem => 0
  | _ => 0

abbrev bufTy : (tb : Table) → Fin (tcTables nBuf tb) → BufTy
  | .hbm, ⟨0, _⟩ => ⟨S32x2000x64, .f32⟩
  | .hbm, ⟨1, _⟩ => ⟨S2000x32, .i32⟩
  | .hbm, ⟨2, _⟩ => ⟨S2000x32, .f32⟩
  | .hbm, ⟨3, _⟩ => ⟨S128x2080, .f32⟩
  | .hbm, ⟨4, _⟩ => ⟨S128, .f32⟩
  | .hbm, ⟨5, _⟩ => ⟨S32x2000x64, .bf16⟩
  | .hbm, ⟨6, _⟩ => ⟨S128x32x65, .f32⟩
  | .hbm, ⟨7, _⟩ => ⟨S128x32x64, .f32⟩
  | .hbm, ⟨8, _⟩ => ⟨S128x32x1, .f32⟩
  | .hbm, ⟨9, _⟩ => ⟨S128x32, .f32⟩
  | .hbm, ⟨10, _⟩ => ⟨S32x64x128, .f32⟩
  | .hbm, ⟨11, _⟩ => ⟨S32x64x128, .bf16⟩
  | .hbm, ⟨12, _⟩ => ⟨S32x128, .f32⟩
  | .hbm, ⟨13, _⟩ => ⟨S32x128, .bf16⟩
  | .hbm, ⟨14, _⟩ => ⟨S1x128, .f32⟩
  | .hbm, ⟨15, _⟩ => ⟨S32x2000x128, .f32⟩
  | .local _ .vmem, ⟨0, _⟩ => ⟨S1x2000x64, .bf16⟩
  | .local _ .vmem, ⟨1, _⟩ => ⟨S1x2000x64, .bf16⟩
  | .local _ .vmem, ⟨2, _⟩ => ⟨S200x32, .i32⟩
  | .local _ .vmem, ⟨3, _⟩ => ⟨S200x32, .i32⟩
  | .local _ .vmem, ⟨4, _⟩ => ⟨S200x32, .f32⟩
  | .local _ .vmem, ⟨5, _⟩ => ⟨S200x32, .f32⟩
  | .local _ .vmem, ⟨6, _⟩ => ⟨S32x64x128, .bf16⟩
  | .local _ .vmem, ⟨7, _⟩ => ⟨S32x128, .bf16⟩
  | .local _ .vmem, ⟨8, _⟩ => ⟨S1x128, .f32⟩
  | .local _ .vmem, ⟨9, _⟩ => ⟨S1x200x128, .f32⟩
  | .local _ .vmem, ⟨10, _⟩ => ⟨S1x200x128, .f32⟩
  | _, _ => ⟨S32x2000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S200x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S200x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S32x64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  shapeCasts_S128x2080_S128x32x65 : S128x2080.ShapeCasts S128x32x65
  slices_S128x32x65_S128x32x64_0_0_0 : S128x32x65.Slices ![0, 0, 0] S128x32x64
  slices_S128x32x65_S128x32x1_0_0_64 : S128x32x65.Slices ![0, 0, 64] S128x32x1
  shapeCasts_S128x32x1_S128x32 : S128x32x1.ShapeCasts S128x32
  transposes_S128x32x64_S32x64x128_1_2_0 : S128x32x64.Transposes [1, 2, 0] S32x64x128
  transposes_S128x32_S32x128_1_0 : S128x32.Transposes [1, 0] S32x128
  shapeCasts_S128_S1x128 : S128.ShapeCasts S1x128
  inb_S1x2000x64_S1x2000x64_0_0_0 : ∀ a, (![0, 0, 0] : Fin 3 → Nat) a + S1x2000x64.size a ≤ S1x2000x64.size a
  h_S1x2000x64 : 0 < S1x2000x64.numel
  shapeCasts_S1x2000x64_S2000x64 : S1x2000x64.ShapeCasts S2000x64
  iota_S1x2000_d1_w32 : S1x2000.Iotas .tc 32 [1]
  inb_S200x32_S200x1_0_0 : ∀ a, (![0, 0] : Fin 2 → Nat) a + S200x1.size a ≤ S200x32.size a
  h_S200x1 : 0 < S200x1.numel
  broadcasts_S200x1_S200x2000 : S200x1.Broadcasts S200x2000
  broadcasts_S1x2000_S200x2000 : S1x2000.Broadcasts S200x2000
  natLt_1_32 : 1 < 32
  inb_S32x64x128_S1x64x128_0_0_0 : ∀ a, (![0, 0, 0] : Fin 3 → Nat) a + S1x64x128.size a ≤ S32x64x128.size a
  h_S1x64x128 : 0 < S1x64x128.numel
  shapeCasts_S1x64x128_S64x128 : S1x64x128.ShapeCasts S64x128
  inb_S200x32_S200x1_0_1 : ∀ a, (![0, 1] : Fin 2 → Nat) a + S200x1.size a ≤ S200x32.size a
  inb_S32x64x128_S1x64x128_1_0_0 : ∀ a, (![1, 0, 0] : Fin 3 → Nat) a + S1x64x128.size a ≤ S32x64x128.size a
  inb_S200x32_S200x1_0_2 : ∀ a, (![0, 2] : Fin 2 → Nat) a + S200x1.size a ≤ S200x32.size a
  inb_S32x64x128_S1x64x128_2_0_0 : ∀ a, (![2, 0, 0] : Fin 3 → Nat) a + S1x64x128.size a ≤ S32x64x128.size a
  inb_S200x32_S200x1_0_3 : ∀ a, (![0, 3] : Fin 2 → Nat) a + S200x1.size a ≤ S200x32.size a
  inb_S32x64x128_S1x64x128_3_0_0 : ∀ a, (![3, 0, 0] : Fin 3 → Nat) a + S1x64x128.size a ≤ S32x64x128.size a
  inb_S200x32_S200x1_0_4 : ∀ a, (![0, 4] : Fin 2 → Nat) a + S200x1.size a ≤ S200x32.size a
  inb_S32x64x128_S1x64x128_4_0_0 : ∀ a, (![4, 0, 0] : Fin 3 → Nat) a + S1x64x128.size a ≤ S32x64x128.size a
  inb_S200x32_S200x1_0_5 : ∀ a, (![0, 5] : Fin 2 → Nat) a + S200x1.size a ≤ S200x32.size a
  inb_S32x64x128_S1x64x128_5_0_0 : ∀ a, (![5, 0, 0] : Fin 3 → Nat) a + S1x64x128.size a ≤ S32x64x128.size a
  inb_S200x32_S200x1_0_6 : ∀ a, (![0, 6] : Fin 2 → Nat) a + S200x1.size a ≤ S200x32.size a
  inb_S32x64x128_S1x64x128_6_0_0 : ∀ a, (![6, 0, 0] : Fin 3 → Nat) a + S1x64x128.size a ≤ S32x64x128.size a
  inb_S200x32_S200x1_0_7 : ∀ a, (![0, 7] : Fin 2 → Nat) a + S200x1.size a ≤ S200x32.size a
  inb_S32x64x128_S1x64x128_7_0_0 : ∀ a, (![7, 0, 0] : Fin 3 → Nat) a + S1x64x128.size a ≤ S32x64x128.size a
  inb_S200x32_S200x1_0_8 : ∀ a, (![0, 8] : Fin 2 → Nat) a + S200x1.size a ≤ S200x32.size a
  inb_S32x64x128_S1x64x128_8_0_0 : ∀ a, (![8, 0, 0] : Fin 3 → Nat) a + S1x64x128.size a ≤ S32x64x128.size a
  inb_S200x32_S200x1_0_9 : ∀ a, (![0, 9] : Fin 2 → Nat) a + S200x1.size a ≤ S200x32.size a
  inb_S32x64x128_S1x64x128_9_0_0 : ∀ a, (![9, 0, 0] : Fin 3 → Nat) a + S1x64x128.size a ≤ S32x64x128.size a
  inb_S200x32_S200x1_0_10 : ∀ a, (![0, 10] : Fin 2 → Nat) a + S200x1.size a ≤ S200x32.size a
  inb_S32x64x128_S1x64x128_10_0_0 : ∀ a, (![10, 0, 0] : Fin 3 → Nat) a + S1x64x128.size a ≤ S32x64x128.size a
  inb_S200x32_S200x1_0_11 : ∀ a, (![0, 11] : Fin 2 → Nat) a + S200x1.size a ≤ S200x32.size a
  inb_S32x64x128_S1x64x128_11_0_0 : ∀ a, (![11, 0, 0] : Fin 3 → Nat) a + S1x64x128.size a ≤ S32x64x128.size a
  inb_S200x32_S200x1_0_12 : ∀ a, (![0, 12] : Fin 2 → Nat) a + S200x1.size a ≤ S200x32.size a
  inb_S32x64x128_S1x64x128_12_0_0 : ∀ a, (![12, 0, 0] : Fin 3 → Nat) a + S1x64x128.size a ≤ S32x64x128.size a
  inb_S200x32_S200x1_0_13 : ∀ a, (![0, 13] : Fin 2 → Nat) a + S200x1.size a ≤ S200x32.size a
  inb_S32x64x128_S1x64x128_13_0_0 : ∀ a, (![13, 0, 0] : Fin 3 → Nat) a + S1x64x128.size a ≤ S32x64x128.size a
  inb_S200x32_S200x1_0_14 : ∀ a, (![0, 14] : Fin 2 → Nat) a + S200x1.size a ≤ S200x32.size a
  inb_S32x64x128_S1x64x128_14_0_0 : ∀ a, (![14, 0, 0] : Fin 3 → Nat) a + S1x64x128.size a ≤ S32x64x128.size a
  inb_S200x32_S200x1_0_15 : ∀ a, (![0, 15] : Fin 2 → Nat) a + S200x1.size a ≤ S200x32.size a
  inb_S32x64x128_S1x64x128_15_0_0 : ∀ a, (![15, 0, 0] : Fin 3 → Nat) a + S1x64x128.size a ≤ S32x64x128.size a
  inb_S200x32_S200x1_0_16 : ∀ a, (![0, 16] : Fin 2 → Nat) a + S200x1.size a ≤ S200x32.size a
  inb_S32x64x128_S1x64x128_16_0_0 : ∀ a, (![16, 0, 0] : Fin 3 → Nat) a + S1x64x128.size a ≤ S32x64x128.size a
  inb_S200x32_S200x1_0_17 : ∀ a, (![0, 17] : Fin 2 → Nat) a + S200x1.size a ≤ S200x32.size a
  inb_S32x64x128_S1x64x128_17_0_0 : ∀ a, (![17, 0, 0] : Fin 3 → Nat) a + S1x64x128.size a ≤ S32x64x128.size a
  inb_S200x32_S200x1_0_18 : ∀ a, (![0, 18] : Fin 2 → Nat) a + S200x1.size a ≤ S200x32.size a
  inb_S32x64x128_S1x64x128_18_0_0 : ∀ a, (![18, 0, 0] : Fin 3 → Nat) a + S1x64x128.size a ≤ S32x64x128.size a
  inb_S200x32_S200x1_0_19 : ∀ a, (![0, 19] : Fin 2 → Nat) a + S200x1.size a ≤ S200x32.size a
  inb_S32x64x128_S1x64x128_19_0_0 : ∀ a, (![19, 0, 0] : Fin 3 → Nat) a + S1x64x128.size a ≤ S32x64x128.size a
  inb_S200x32_S200x1_0_20 : ∀ a, (![0, 20] : Fin 2 → Nat) a + S200x1.size a ≤ S200x32.size a
  inb_S32x64x128_S1x64x128_20_0_0 : ∀ a, (![20, 0, 0] : Fin 3 → Nat) a + S1x64x128.size a ≤ S32x64x128.size a
  inb_S200x32_S200x1_0_21 : ∀ a, (![0, 21] : Fin 2 → Nat) a + S200x1.size a ≤ S200x32.size a
  inb_S32x64x128_S1x64x128_21_0_0 : ∀ a, (![21, 0, 0] : Fin 3 → Nat) a + S1x64x128.size a ≤ S32x64x128.size a
  inb_S200x32_S200x1_0_22 : ∀ a, (![0, 22] : Fin 2 → Nat) a + S200x1.size a ≤ S200x32.size a
  inb_S32x64x128_S1x64x128_22_0_0 : ∀ a, (![22, 0, 0] : Fin 3 → Nat) a + S1x64x128.size a ≤ S32x64x128.size a
  inb_S200x32_S200x1_0_23 : ∀ a, (![0, 23] : Fin 2 → Nat) a + S200x1.size a ≤ S200x32.size a
  inb_S32x64x128_S1x64x128_23_0_0 : ∀ a, (![23, 0, 0] : Fin 3 → Nat) a + S1x64x128.size a ≤ S32x64x128.size a
  inb_S200x32_S200x1_0_24 : ∀ a, (![0, 24] : Fin 2 → Nat) a + S200x1.size a ≤ S200x32.size a
  inb_S32x64x128_S1x64x128_24_0_0 : ∀ a, (![24, 0, 0] : Fin 3 → Nat) a + S1x64x128.size a ≤ S32x64x128.size a
  inb_S200x32_S200x1_0_25 : ∀ a, (![0, 25] : Fin 2 → Nat) a + S200x1.size a ≤ S200x32.size a
  inb_S32x64x128_S1x64x128_25_0_0 : ∀ a, (![25, 0, 0] : Fin 3 → Nat) a + S1x64x128.size a ≤ S32x64x128.size a
  inb_S200x32_S200x1_0_26 : ∀ a, (![0, 26] : Fin 2 → Nat) a + S200x1.size a ≤ S200x32.size a
  inb_S32x64x128_S1x64x128_26_0_0 : ∀ a, (![26, 0, 0] : Fin 3 → Nat) a + S1x64x128.size a ≤ S32x64x128.size a
  inb_S200x32_S200x1_0_27 : ∀ a, (![0, 27] : Fin 2 → Nat) a + S200x1.size a ≤ S200x32.size a
  inb_S32x64x128_S1x64x128_27_0_0 : ∀ a, (![27, 0, 0] : Fin 3 → Nat) a + S1x64x128.size a ≤ S32x64x128.size a
  inb_S200x32_S200x1_0_28 : ∀ a, (![0, 28] : Fin 2 → Nat) a + S200x1.size a ≤ S200x32.size a
  inb_S32x64x128_S1x64x128_28_0_0 : ∀ a, (![28, 0, 0] : Fin 3 → Nat) a + S1x64x128.size a ≤ S32x64x128.size a
  inb_S200x32_S200x1_0_29 : ∀ a, (![0, 29] : Fin 2 → Nat) a + S200x1.size a ≤ S200x32.size a
  inb_S32x64x128_S1x64x128_29_0_0 : ∀ a, (![29, 0, 0] : Fin 3 → Nat) a + S1x64x128.size a ≤ S32x64x128.size a
  inb_S200x32_S200x1_0_30 : ∀ a, (![0, 30] : Fin 2 → Nat) a + S200x1.size a ≤ S200x32.size a
  inb_S32x64x128_S1x64x128_30_0_0 : ∀ a, (![30, 0, 0] : Fin 3 → Nat) a + S1x64x128.size a ≤ S32x64x128.size a
  inb_S200x32_S200x1_0_31 : ∀ a, (![0, 31] : Fin 2 → Nat) a + S200x1.size a ≤ S200x32.size a
  inb_S32x64x128_S1x64x128_31_0_0 : ∀ a, (![31, 0, 0] : Fin 3 → Nat) a + S1x64x128.size a ≤ S32x64x128.size a
  inb_S200x32_S200x32_0_0 : ∀ a, (![0, 0] : Fin 2 → Nat) a + S200x32.size a ≤ S200x32.size a
  h_S200x32 : 0 < S200x32.numel
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S1x200x128_S1x200x128_0_0_0 : ∀ a, (![0, 0, 0] : Fin 3 → Nat) a + S1x200x128.size a ≤ S1x200x128.size a
  h_S1x200x128 : 0 < S1x200x128.numel
  shapeCasts_S1x200x128_S200x128 : S1x200x128.ShapeCasts S200x128
  shapeCasts_S200x128_S1x200x128 : S200x128.ShapeCasts S1x200x128
  dot_S200x2000_S2000x64_S200x64_1_0_0_1_n_n_wf : DotDims.WF S200x2000 S2000x64 S200x64 [1] [0] [0] [1] [] []
  dot_S200x64_S64x128_S200x128_1_0_0_1_n_n_wf : DotDims.WF S200x64 S64x128 S200x128 [1] [0] [0] [1] [] []
  dot_S200x32_S32x128_S200x128_1_0_0_1_n_n_wf : DotDims.WF S200x32 S32x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x64.size a ≤ S32x2000x64.size a
  hwx0_0 : ∀ i : grid0.Coords, EltTy.bits .bf16 = 32 ∨ (Rect.block (s := S32x2000x64) S1x2000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x32.size a ≤ S2000x32.size a
  hwx0_1 : ∀ i : grid0.Coords, EltTy.bits .i32 = 32 ∨ (Rect.block (s := S2000x32) S200x32.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x32.size a ≤ S2000x32.size a
  hwx0_2 : ∀ i : grid0.Coords, EltTy.bits .f32 = 32 ∨ (Rect.block (s := S2000x32) S200x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64x128.size a ≤ S32x64x128.size a
  hwx0_3 : ∀ i : grid0.Coords, EltTy.bits .bf16 = 32 ∨ (Rect.block (s := S32x64x128) S32x64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .bf16 = 32 ∨ (Rect.block (s := S32x128) S32x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x200x128.size a ≤ S32x2000x128.size a
  hwx0_6 : ∀ i : grid0.Coords, EltTy.bits .f32 = 32 ∨ (Rect.block (s := S32x2000x128) S1x200x128.size (cc0_transform_6 i) (hinb0_6 i)).WholeWords (EltTy.packing .f32)

variable [Facts₀]

def dot_S200x2000_S2000x64_S200x64_1_0_0_1_n_n : DotDims S200x2000 S2000x64 S200x64 where
  lhsContracting := [1]
  rhsContracting := [0]
  lhsNonContracting := [0]
  rhsNonContracting := [1]
  lhsBatch := []
  rhsBatch := []
  wf := dot_S200x2000_S2000x64_S200x64_1_0_0_1_n_n_wf
def dot_S200x64_S64x128_S200x128_1_0_0_1_n_n : DotDims S200x64 S64x128 S200x128 where
  lhsContracting := [1]
  rhsContracting := [0]
  lhsNonContracting := [0]
  rhsNonContracting := [1]
  lhsBatch := []
  rhsBatch := []
  wf := dot_S200x64_S64x128_S200x128_1_0_0_1_n_n_wf
def dot_S200x32_S32x128_S200x128_1_0_0_1_n_n : DotDims S200x32 S32x128 S200x128 where
  lhsContracting := [1]
  rhsContracting := [0]
  lhsNonContracting := [0]
  rhsNonContracting := [1]
  lhsBatch := []
  rhsBatch := []
  wf := dot_S200x32_S32x128_S200x128_1_0_0_1_n_n_wf

abbrev win0_0 : Pipeline.Window sig grid0 :=
  Pipeline.Window.ofSpec (Memref.whole main_v0) S1x2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S200x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S32x64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x200x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x2000x64 : Shape := ⟨3, ![32, 2000, 64]⟩
abbrev S2000x32 : Shape := ⟨2, ![2000, 32]⟩
abbrev S128x2080 : Shape := ⟨2, ![128, 2080]⟩
abbrev S128 : Shape := ⟨1, ![128]⟩
abbrev S_ : Shape := ⟨0, ![]⟩
abbrev S2000x32x1 : Shape := ⟨3, ![2000, 32, 1]⟩
abbrev S32x2000x32x64 : Shape := ⟨4, ![32, 2000, 32, 64]⟩
abbrev S1x2000x32x1 : Shape := ⟨4, ![1, 2000, 32, 1]⟩
abbrev S32x2000x32x1 : Shape := ⟨4, ![32, 2000, 32, 1]⟩
abbrev S32x2000x32x65 : Shape := ⟨4, ![32, 2000, 32, 65]⟩
abbrev S32x2000x2080 : Shape := ⟨3, ![32, 2000, 2080]⟩
abbrev S32x2000x128 : Shape := ⟨3, ![32, 2000, 128]⟩
abbrev S1x1x128 : Shape := ⟨3, ![1, 1, 128]⟩

abbrev nBuf : Space → Nat
  | .hbm => 22
  | .vmem => 0
  | .smem => 0
  | _ => 0

abbrev bufTy : (tb : Table) → Fin (tcTables nBuf tb) → BufTy
  | .hbm, ⟨0, _⟩ => ⟨S32x2000x64, .f32⟩
  | .hbm, ⟨1, _⟩ => ⟨S2000x32, .i32⟩
  | .hbm, ⟨2, _⟩ => ⟨S2000x32, .f32⟩
  | .hbm, ⟨3, _⟩ => ⟨S128x2080, .f32⟩
  | .hbm, ⟨4, _⟩ => ⟨S128, .f32⟩
  | .hbm, ⟨5, _⟩ => ⟨S_, .i32⟩
  | .hbm, ⟨6, _⟩ => ⟨S2000x32, .i32⟩
  | .hbm, ⟨7, _⟩ => ⟨S2000x32, .i1⟩
  | .hbm, ⟨8, _⟩ => ⟨S_, .i32⟩
  | .hbm, ⟨9, _⟩ => ⟨S2000x32, .i32⟩
  | .hbm, ⟨10, _⟩ => ⟨S2000x32, .i32⟩
  | .hbm, ⟨11, _⟩ => ⟨S2000x32, .i32⟩
  | .hbm, ⟨12, _⟩ => ⟨S2000x32x1, .i32⟩
  | .hbm, ⟨13, _⟩ => ⟨S32x2000x32x64, .f32⟩
  | .hbm, ⟨14, _⟩ => ⟨S1x2000x32x1, .f32⟩
  | .hbm, ⟨15, _⟩ => ⟨S32x2000x32x1, .f32⟩
  | .hbm, ⟨16, _⟩ => ⟨S32x2000x32x65, .f32⟩
  | .hbm, ⟨17, _⟩ => ⟨S32x2000x2080, .f32⟩
  | .hbm, ⟨18, _⟩ => ⟨S32x2000x128, .f32⟩
  | .hbm, ⟨19, _⟩ => ⟨S1x1x128, .f32⟩
  | .hbm, ⟨20, _⟩ => ⟨S32x2000x128, .f32⟩
  | .hbm, ⟨21, _⟩ => ⟨S32x2000x128, .f32⟩
  | _, _ => ⟨S32x2000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2000x32 : S_.BroadcastsInDim S2000x32 (![] : Fin 0 → Fin S2000x32.rank)
  bcast_S2000x32_S2000x32x1_0_1 : S2000x32.BroadcastsInDim S2000x32x1 (![0, 1] : Fin 2 → Fin S2000x32x1.rank)
  bcast_S2000x32_S1x2000x32x1_1_2 : S2000x32.BroadcastsInDim S1x2000x32x1 (![1, 2] : Fin 2 → Fin S1x2000x32x1.rank)
  bcast_S1x2000x32x1_S32x2000x32x1_0_1_2_3 : S1x2000x32x1.BroadcastsInDim S32x2000x32x1 (![0, 1, 2, 3] : Fin 4 → Fin S32x2000x32x1.rank)
  concatenates_S32x2000x32x64_S32x2000x32x1_S32x2000x32x65_d3 : Shape.Concatenates [S32x2000x32x64, S32x2000x32x1] S32x2000x32x65 3
  shapeCasts_S32x2000x32x65_S32x2000x2080 : S32x2000x32x65.ShapeCasts S32x2000x2080
  bcast_S128_S1x1x128_2 : S128.BroadcastsInDim S1x1x128 (![2] : Fin 1 → Fin S1x1x128.rank)
  bcast_S1x1x128_S32x2000x128_0_1_2 : S1x1x128.BroadcastsInDim S32x2000x128 (![0, 1, 2] : Fin 3 → Fin S32x2000x128.rank)
  gather_S32x2000x64_S2000x32x1_S32x2000x32x64_03_1_n_n_1_2_32164_wf : GatherDims.WF S32x2000x64 S2000x32x1 S32x2000x32x64 [0, 3] [1] [] [1] [] 2 ![32, 1, 64]
  dot_S32x2000x2080_S128x2080_S32x2000x128_2_1_01_0_n_n_wf : DotDims.WF S32x2000x2080 S128x2080 S32x2000x128 [2] [1] [0, 1] [0] [] []

variable [Facts₀]

def gather_S32x2000x64_S2000x32x1_S32x2000x32x64_03_1_n_n_1_2_32164 : GatherDims S32x2000x64 S2000x32x1 S32x2000x32x64 where
  offsetDims := [0, 3]
  collapsedSliceDims := [1]
  operandBatchingDims := []
  startIndicesBatchingDims := []
  startIndexMap := [1]
  indexVectorDim := 2
  sliceSizes := ![32, 1, 64]
  wf := gather_S32x2000x64_S2000x32x1_S32x2000x32x64_03_1_n_n_1_2_32164_wf
def dot_S32x2000x2080_S128x2080_S32x2000x128_2_1_01_0_n_n : DotDims S32x2000x2080 S128x2080 S32x2000x128 where
  lhsContracting := [2]
  rhsContracting := [1]
  lhsNonContracting := [0, 1]
  rhsNonContracting := [0]
  lhsBatch := []
  rhsBatch := []
  wf := dot_S32x2000x2080_S128x2080_S32x2000x128_2_1_01_0_n_n_wf

class Facts : Prop extends Facts₀ where

variable [Facts]
-- ==== Proof.Spec.lean ====
/-
  The layer this certificate is about, as ONE function of the argument arrays.

  For a batch `B`, a node `n` and an output channel `o` the layer gathers, for each of the 32 neighbour
  ranks `k`, the 64 features of node `J n k` of batch `B`, appends the distance `dist[n, k]`, and applies
  the dense map `W` (128 × 2080, its columns laid out rank by rank: 64 feature columns, then the distance
  column, per rank) and the bias:

    out[B, n, o] = Σ_k Σ_f x[B, J n k, f] · W[o, 65 k + f]  +  Σ_k dist[n, k] · W[o, 65 k + 64]  +  b[o].

  `J n k` is the neighbour table read as a node index (the table's words are in range, so the word IS the
  index). Both programs compute this function on the extended reals; only commutativity and associativity
  of the sum are used to bring either one to this form.
-/
import Idealize.ShloMosaic.PureOps.Ideal
import Idealize.ShloMosaic.Lib.ValueIdx

noncomputable section

namespace Cert.Layer

open Idealize.ShloMosaic Idealize.ShloMosaic.ValueIdx

/-- The column of `W` that multiplies feature `f` of the rank-`k` neighbour. -/
def wcol (k : Fin 32) (f : Fin 64) : Fin 2080 := ⟨k.val * 65 + f.val, by omega⟩
/-- The column of `W` that multiplies the distance to the rank-`k` neighbour. -/
def wlast (k : Fin 32) : Fin 2080 := ⟨k.val * 65 + 64, by omega⟩

/-- The layer's output, index by index, from the features `x`, the neighbour table `J` (as node indices), the
    distances, the weights and the bias. -/
def G (x : (⟨3, ![32, 2000, 64]⟩ : Shape).Idx → EReal) (J : Fin 2000 → Fin 32 → Fin 2000)
    (dist : (⟨2, ![2000, 32]⟩ : Shape).Idx → EReal) (W : (⟨2, ![128, 2080]⟩ : Shape).Idx → EReal)
    (b : (⟨1, ![128]⟩ : Shape).Idx → EReal) : (⟨3, ![32, 2000, 128]⟩ : Shape).Idx → EReal :=
  fun i =>
    (∑ k : Fin 32, ∑ f : Fin 64, x (ix3 (i 0) (J (i 1) k) f) * W (ix2 (i 2) (wcol k f)))
      + (∑ k : Fin 32, dist (ix2 (i 1) k) * W (ix2 (i 2) (wlast k)))
      + b (ix1 (i 2))

/-- The neighbour table's word at `(n, k)` read as a node index: the word's value, kept below 2000 (it is,
    whenever the table is in range, and then the word is this index's numeral: `word_eq_of_lt`). -/
def nodeOf (nb : (⟨2, ![2000, 32]⟩ : Shape).Idx → BitVec 32) (n : Fin 2000) (k : Fin 32) : Fin 2000 :=
  ⟨min (nb (ix2 n k)).toNat 1999, by omega⟩

/-- A table word below 2000 is the numeral of the index `nodeOf` reads it as. -/
theorem word_eq_of_lt (nb : (⟨2, ![2000, 32]⟩ : Shape).Idx → BitVec 32) (n : Fin 2000) (k : Fin 32)
    (h : (nb (ix2 n k)).toNat < 2000) : nb (ix2 n k) = BitVec.ofNat 32 (nodeOf nb n k).val := by
  apply BitVec.eq_of_toNat_eq
  have h2 : min (nb (ix2 n k)).toNat 1999 = (nb (ix2 n k)).toNat := by omega
  simp only [nodeOf, BitVec.toNat_ofNat, h2]
  omega

end Cert.Layer

end
-- ==== Proof.Chain.lean ====
/-
  A sum over the 32 neighbour ranks written out rank by rank, added up from the left: the order in which the kernel's
  body, unrolled, adds the ranks' contributions to its accumulator.
-/
import Mathlib.Algebra.BigOperators.Fin

namespace Cert.Layer

/-- `Σ_{k < 32} T k` is `T 0 + T 1 + … + T 31`, the terms added from the left. -/
theorem sum32 {M : Type*} [AddCommMonoid M] (T : Fin 32 → M) :
    ∑ k : Fin 32, T k
      = T ⟨0, by omega⟩ + T ⟨1, by omega⟩ + T ⟨2, by omega⟩ + T ⟨3, by omega⟩ + T ⟨4, by omega⟩ + T ⟨5, by omega⟩ + T ⟨6, by omega⟩ + T ⟨7, by omega⟩ + T ⟨8, by omega⟩ + T ⟨9, by omega⟩ + T ⟨10, by omega⟩ + T ⟨11, by omega⟩ + T ⟨12, by omega⟩ + T ⟨13, by omega⟩ + T ⟨14, by omega⟩ + T ⟨15, by omega⟩ + T ⟨16, by omega⟩ + T ⟨17, by omega⟩ + T ⟨18, by omega⟩ + T ⟨19, by omega⟩ + T ⟨20, by omega⟩ + T ⟨21, by omega⟩ + T ⟨22, by omega⟩ + T ⟨23, by omega⟩ + T ⟨24, by omega⟩ + T ⟨25, by omega⟩ + T ⟨26, by omega⟩ + T ⟨27, by omega⟩ + T ⟨28, by omega⟩ + T ⟨29, by omega⟩ + T ⟨30, by omega⟩ + T ⟨31, by omega⟩ := by
  have e : ∀ k : Fin 32, T k = (fun n : ℕ => if h : n < 32 then T ⟨n, h⟩ else 0) k.val := fun k => by
    simp only [Fin.is_lt, dite_true, Fin.eta]
  rw [Finset.sum_congr rfl (fun k _ => e k),
    Fin.sum_univ_eq_sum_range (fun n : ℕ => if h : n < 32 then T ⟨n, h⟩ else 0) 32]
  simp only [Finset.sum_range_succ, Finset.sum_range_zero, zero_add, Nat.reduceLT, dite_true]

end Cert.Layer
-- ==== Proof.Body.lean ====
/-
  The kernel's body, read at one output element.

  At a grid point the body holds one batch's feature table `x` (2000 × 64), a block of 200 rows of the
  neighbour table (200 × 32) and of the distances, and the weights re-laid as 32 slabs `w_k` (64 × 128) and a
  32 × 128 matrix for the distance columns. For each neighbour rank `k` it builds the 0/1 matrix
  `sel_k[r, j] = [nb[r, k] = j]` (200 × 2000), multiplies it into `x` — row `r` of the product is the sum over `j` of
  `sel_k[r, j] · x[j, ·]` — and multiplies that into `w_k`, adding the result to an accumulator that starts at
  zero; then it adds the distances' product and the bias. So element `(r, o)` of what it stores is

    ((0 + T 0 + T 1 + … + T 31) + Σ_k dist[r, k] · wd[k, o]) + bias[o],
    T k = Σ_f (Σ_j sel_k[r, j] · x[j, f]) · w_k[f, o].

  This module names the two repeated pieces of the body (`sel`, the 0/1 matrix, and `step`, one rank's
  update of the accumulator), shows that the body's printed pieces are compositions of them, and reads the whole
  at an index.
-/
import proofs.«421400_j16707422781891_1_alg».proof.Proof.Gen.KernelIdeal.Frame
import proofs.«421400_j16707422781891_1_alg».proof.Proof.Spec
import proofs.«421400_j16707422781891_1_alg».proof.Proof.Chain
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.Layer.Body

open Cert.KernelIdeal Cert.KernelIdeal.Gen Idealize.ShloMosaic Idealize.ShloMosaic.ValueIdx Idealize.ShloMosaic.TcCoe
open Idealize.SL.Sem

variable [Cert.KernelIdeal.Facts]

section AnyInstance
variable {F : FTy → Type} [FloatOps F]

/-- The column counter `0, 1, …, 1999` the body compares the neighbour words with. -/
abbrev cols : IVec S1x2000 32 := iota .tc S1x2000 32 [1] Facts₀.iota_S1x2000_d1_w32

/-- The 0/1 matrix of one neighbour rank: entry `(r, j)` is one where row `r`'s neighbour word equals counter
    `j`, zero elsewhere (as a float, through the integer 0/1). -/
def sel (v2 : IVec S1x2000 32) (nbcol : Vec F S200x1 .i32) : FVec F S200x2000 .bf16 :=
  truncf .bf16 (sitofp .f32 (extui 32 (cmpi .eq (broadcastTo S200x2000 nbcol Facts₀.broadcasts_S200x1_S200x2000)
    (broadcastTo S200x2000 v2 Facts₀.broadcasts_S1x2000_S200x2000)) Facts₀.natLt_1_32)) Facts₀.bitsLt_bf16_f32

/-- One neighbour rank's update: the accumulator plus (the 0/1 matrix times the feature table) times the rank's
    weight slab. -/
def step (x : FVec F S2000x64 .bf16) (acc : FVec F S200x128 .f32) (oh : FVec F S200x2000 .bf16)
    (z : FVec F S200x64 .f32) (wk : Vec F S1x64x128 .bf16) : FVec F S200x128 .f32 :=
  addf acc (matmul dot_S200x64_S64x128_S200x128_1_0_0_1_n_n none
    (truncf .bf16 (matmul dot_S200x2000_S2000x64_S200x64_1_0_0_1_n_n none oh x z) Facts₀.bitsLt_bf16_f32)
    (shapeCast S64x128 wk Facts₀.shapeCasts_S1x64x128_S64x128) (constant S200x128 .f32 0x00000000#32))

/-- The zero the inner products accumulate into. -/
abbrev z64 : FVec F S200x64 .f32 := constant S200x64 .f32 0x00000000#32

/-! ### The printed pieces are compositions of `sel` and `step` -/

theorem pay3_eq (v0 : Vec F S1x2000x64 .bf16) (v4 : Vec F S200x1 .i32) (v13 : Vec F S1x64x128 .bf16)
    (v17 : Vec F S200x1 .i32) (v26 : Vec F S1x64x128 .bf16) :
    k0_pay3 v0 v4 v13 v17 v26 = step (k0_pay2 v0) (step (k0_pay2 v0)
      (broadcast S200x128 (Scalar.ofBits .f32 0x00000000#32)) (sel cols v4) z64 v13) (sel cols v17) z64 v26 := rfl

theorem pay4_eq (v : Vec F S200x1 .i32) : k0_pay4 (F := F) v = sel cols v := rfl
theorem pay6_eq (v2 : IVec S1x2000 32) (v : Vec F S200x1 .i32) : k0_pay6 (F := F) v2 v = sel v2 v := rfl
theorem pay8_eq (v2 : IVec S1x2000 32) (v : Vec F S200x1 .i32) : k0_pay8 (F := F) v2 v = sel v2 v := rfl
theorem pay10_eq (v2 : IVec S1x2000 32) (v : Vec F S200x1 .i32) : k0_pay10 (F := F) v2 v = sel v2 v := rfl
theorem pay12_eq (v2 : IVec S1x2000 32) (v : Vec F S200x1 .i32) : k0_pay12 (F := F) v2 v = sel v2 v := rfl
theorem pay14_eq (v2 : IVec S1x2000 32) (v : Vec F S200x1 .i32) : k0_pay14 (F := F) v2 v = sel v2 v := rfl
theorem pay16_eq (v2 : IVec S1x2000 32) (v : Vec F S200x1 .i32) : k0_pay16 (F := F) v2 v = sel v2 v := rfl
theorem pay18_eq (v2 : IVec S1x2000 32) (v : Vec F S200x1 .i32) : k0_pay18 (F := F) v2 v = sel v2 v := rfl
theorem pay20_eq (v2 : IVec S1x2000 32) (v : Vec F S200x1 .i32) : k0_pay20 (F := F) v2 v = sel v2 v := rfl
theorem pay22_eq (v2 : IVec S1x2000 32) (v : Vec F S200x1 .i32) : k0_pay22 (F := F) v2 v = sel v2 v := rfl

theorem pay5_eq (v1 : FVec F S2000x64 .bf16) (v2 : IVec S1x2000 32) (acc : FVec F S200x128 .f32)
    (oh : FVec F S200x2000 .bf16) (z : FVec F S200x64 .f32) (w0 : Vec F S1x64x128 .bf16) (n1 : Vec F S200x1 .i32)
    (w1 : Vec F S1x64x128 .bf16) (n2 : Vec F S200x1 .i32) (w2 : Vec F S1x64x128 .bf16) :
    k0_pay5 v1 v2 acc oh z w0 n1 w1 n2 w2
      = step v1 (step v1 (step v1 acc oh z w0) (sel v2 n1) z64 w1) (sel v2 n2) z64 w2 := rfl
theorem pay7_eq (v1 : FVec F S2000x64 .bf16) (v2 : IVec S1x2000 32) (acc : FVec F S200x128 .f32)
    (oh : FVec F S200x2000 .bf16) (z : FVec F S200x64 .f32) (w0 : Vec F S1x64x128 .bf16) (n1 : Vec F S200x1 .i32)
    (w1 : Vec F S1x64x128 .bf16) (n2 : Vec F S200x1 .i32) (w2 : Vec F S1x64x128 .bf16) :
    k0_pay7 v1 v2 acc oh z w0 n1 w1 n2 w2
      = step v1 (step v1 (step v1 acc oh z w0) (sel v2 n1) z64 w1) (sel v2 n2) z64 w2 := rfl
theorem pay9_eq (v1 : FVec F S2000x64 .bf16) (v2 : IVec S1x2000 32) (acc : FVec F S200x128 .f32)
    (oh : FVec F S200x2000 .bf16) (z : FVec F S200x64 .f32) (w0 : Vec F S1x64x128 .bf16) (n1 : Vec F S200x1 .i32)
    (w1 : Vec F S1x64x128 .bf16) (n2 : Vec F S200x1 .i32) (w2 : Vec F S1x64x128 .bf16) :
    k0_pay9 v1 v2 acc oh z w0 n1 w1 n2 w2
      = step v1 (step v1 (step v1 acc oh z w0) (sel v2 n1) z64 w1) (sel v2 n2) z64 w2 := rfl
theorem pay11_eq (v1 : FVec F S2000x64 .bf16) (v2 : IVec S1x2000 32) (acc : FVec F S200x128 .f32)
    (oh : FVec F S200x2000 .bf16) (z : FVec F S200x64 .f32) (w0 : Vec F S1x64x128 .bf16) (n1 : Vec F S200x1 .i32)
    (w1 : Vec F S1x64x128 .bf16) (n2 : Vec F S200x1 .i32) (w2 : Vec F S1x64x128 .bf16) :
    k0_pay11 v1 v2 acc oh z w0 n1 w1 n2 w2
      = step v1 (step v1 (step v1 acc oh z w0) (sel v2 n1) z64 w1) (sel v2 n2) z64 w2 := rfl
theorem pay13_eq (v1 : FVec F S2000x64 .bf16) (v2 : IVec S1x2000 32) (acc : FVec F S200x128 .f32)
    (oh : FVec F S200x2000 .bf16) (z : FVec F S200x64 .f32) (w0 : Vec F S1x64x128 .bf16) (n1 : Vec F S200x1 .i32)
    (w1 : Vec F S1x64x128 .bf16) (n2 : Vec F S200x1 .i32) (w2 : Vec F S1x64x128 .bf16) :
    k0_pay13 v1 v2 acc oh z w0 n1 w1 n2 w2
      = step v1 (step v1 (step v1 acc oh z w0) (sel v2 n1) z64 w1) (sel v2 n2) z64 w2 := rfl
theorem pay15_eq (v1 : FVec F S2000x64 .bf16) (v2 : IVec S1x2000 32) (acc : FVec F S200x128 .f32)
    (oh : FVec F S200x2000 .bf16) (z : FVec F S200x64 .f32) (w0 : Vec F S1x64x128 .bf16) (n1 : Vec F S200x1 .i32)
    (w1 : Vec F S1x64x128 .bf16) (n2 : Vec F S200x1 .i32) (w2 : Vec F S1x64x128 .bf16) :
    k0_pay15 v1 v2 acc oh z w0 n1 w1 n2 w2
      = step v1 (step v1 (step v1 acc oh z w0) (sel v2 n1) z64 w1) (sel v2 n2) z64 w2 := rfl
theorem pay17_eq (v1 : FVec F S2000x64 .bf16) (v2 : IVec S1x2000 32) (acc : FVec F S200x128 .f32)
    (oh : FVec F S200x2000 .bf16) (z : FVec F S200x64 .f32) (w0 : Vec F S1x64x128 .bf16) (n1 : Vec F S200x1 .i32)
    (w1 : Vec F S1x64x128 .bf16) (n2 : Vec F S200x1 .i32) (w2 : Vec F S1x64x128 .bf16) :
    k0_pay17 v1 v2 acc oh z w0 n1 w1 n2 w2
      = step v1 (step v1 (step v1 acc oh z w0) (sel v2 n1) z64 w1) (sel v2 n2) z64 w2 := rfl
theorem pay19_eq (v1 : FVec F S2000x64 .bf16) (v2 : IVec S1x2000 32) (acc : FVec F S200x128 .f32)
    (oh : FVec F S200x2000 .bf16) (z : FVec F S200x64 .f32) (w0 : Vec F S1x64x128 .bf16) (n1 : Vec F S200x1 .i32)
    (w1 : Vec F S1x64x128 .bf16) (n2 : Vec F S200x1 .i32) (w2 : Vec F S1x64x128 .bf16) :
    k0_pay19 v1 v2 acc oh z w0 n1 w1 n2 w2
      = step v1 (step v1 (step v1 acc oh z w0) (sel v2 n1) z64 w1) (sel v2 n2) z64 w2 := rfl
theorem pay21_eq (v1 : FVec F S2000x64 .bf16) (v2 : IVec S1x2000 32) (acc : FVec F S200x128 .f32)
    (oh : FVec F S200x2000 .bf16) (z : FVec F S200x64 .f32) (w0 : Vec F S1x64x128 .bf16) (n1 : Vec F S200x1 .i32)
    (w1 : Vec F S1x64x128 .bf16) (n2 : Vec F S200x1 .i32) (w2 : Vec F S1x64x128 .bf16) :
    k0_pay21 v1 v2 acc oh z w0 n1 w1 n2 w2
      = step v1 (step v1 (step v1 acc oh z w0) (sel v2 n1) z64 w1) (sel v2 n2) z64 w2 := rfl
theorem pay23_eq (v1 : FVec F S2000x64 .bf16) (v2 : IVec S1x2000 32) (acc : FVec F S200x128 .f32)
    (oh : FVec F S200x2000 .bf16) (z : FVec F S200x64 .f32) (w0 : Vec F S1x64x128 .bf16) (n1 : Vec F S200x1 .i32)
    (w1 : Vec F S1x64x128 .bf16) (n2 : Vec F S200x1 .i32) (w2 : Vec F S1x64x128 .bf16) :
    k0_pay23 v1 v2 acc oh z w0 n1 w1 n2 w2
      = step v1 (step v1 (step v1 acc oh z w0) (sel v2 n1) z64 w1) (sel v2 n2) z64 w2 := rfl

end AnyInstance

/-! ## At the ideal values -/

section AtIdeal

/-! ### A plain matrix product at an element

The body's three products are all rows × columns with one contracted axis. At the ideal values a product into a zero
accumulator, read at `(r, o)`, is the sum over the contracted index `k` of `lhs[r, k] · rhs[k, o]`. -/

/-- For dimension numbers whose operand indices at result `(r, o)` and contraction position `q` are `(r, q)` and
    `(q, o)` (the four coordinate facts `hl0 … hr1`), the product into zero at `(r, o)` is `Σ_k lhs[r, k] · rhs[k, o]`. -/
theorem matmul_plain {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (lhs : FVec Ideal ⟨2, ![M, K]⟩ φ₁) (rhs : FVec Ideal ⟨2, ![K, N]⟩ φ₂) (r : Fin M) (o : Fin N) :
    FloatOps.matmul D none lhs rhs (constant ⟨2, ![M, N]⟩ .f32 0x00000000#32) (ix2 r o)
      = ∑ k : Fin K, lhs (ix2 r k) * rhs (ix2 k o) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r o) ((contrEquiv1 D K hr hs).symm k) = ix2 r k := funext fun a => Fin.ext (by
    match a with
    | ⟨0, _⟩ => exact hl0 _ _
    | ⟨1, _⟩ => exact (hl1 _ _).trans hk)
  have er : D.rhsIdx (ix2 r o) ((contrEquiv1 D K hr hs).symm k) = ix2 k o := funext fun a => Fin.ext (by
    match a with
    | ⟨0, _⟩ => exact (hr0 _ _).trans hk
    | ⟨1, _⟩ => exact hr1 _ _)
  rw [el, er]

/-! The coordinate facts of the 200x2000 by 2000x64 product's dimension numbers. -/
theorem d1_l0 (i : S200x64.Idx) (q : dot_S200x2000_S2000x64_S200x64_1_0_0_1_n_n.contr.Idx) :
    (dot_S200x2000_S2000x64_S200x64_1_0_0_1_n_n.lhsIdx i q 0).val = (i 0).val := by
  unfold DotDims.lhsIdx
  rw [dif_neg (show ¬(0 : Fin S200x2000.rank) ∈ dot_S200x2000_S2000x64_S200x64_1_0_0_1_n_n.lhsBatch by decide), dif_pos (show (0 : Fin S200x2000.rank) ∈ dot_S200x2000_S2000x64_S200x64_1_0_0_1_n_n.lhsNonContracting by decide)]
  rfl
theorem d1_l1 (i : S200x64.Idx) (q : dot_S200x2000_S2000x64_S200x64_1_0_0_1_n_n.contr.Idx) :
    (dot_S200x2000_S2000x64_S200x64_1_0_0_1_n_n.lhsIdx i q 1).val = (q ⟨0, by decide⟩).val :=
  dot_S200x2000_S2000x64_S200x64_1_0_0_1_n_n.lhsIdx_val_of_single rfl i q
theorem d1_r0 (i : S200x64.Idx) (q : dot_S200x2000_S2000x64_S200x64_1_0_0_1_n_n.contr.Idx) :
    (dot_S200x2000_S2000x64_S200x64_1_0_0_1_n_n.rhsIdx i q 0).val = (q ⟨0, by decide⟩).val :=
  dot_S200x2000_S2000x64_S200x64_1_0_0_1_n_n.rhsIdx_val_of_single rfl i q
theorem d1_r1 (i : S200x64.Idx) (q : dot_S200x2000_S2000x64_S200x64_1_0_0_1_n_n.contr.Idx) :
    (dot_S200x2000_S2000x64_S200x64_1_0_0_1_n_n.rhsIdx i q 1).val = (i 1).val := by
  unfold DotDims.rhsIdx
  rw [dif_neg (show ¬(1 : Fin S2000x64.rank) ∈ dot_S200x2000_S2000x64_S200x64_1_0_0_1_n_n.rhsBatch by decide), dif_pos (show (1 : Fin S2000x64.rank) ∈ dot_S200x2000_S2000x64_S200x64_1_0_0_1_n_n.rhsNonContracting by decide)]
  rfl

/-! The coordinate facts of the 200x64 by 64x128 product's dimension numbers. -/
theorem d2_l0 (i : S200x128.Idx) (q : dot_S200x64_S64x128_S200x128_1_0_0_1_n_n.contr.Idx) :
    (dot_S200x64_S64x128_S200x128_1_0_0_1_n_n.lhsIdx i q 0).val = (i 0).val := by
  unfold DotDims.lhsIdx
  rw [dif_neg (show ¬(0 : Fin S200x64.rank) ∈ dot_S200x64_S64x128_S200x128_1_0_0_1_n_n.lhsBatch by decide), dif_pos (show (0 : Fin S200x64.rank) ∈ dot_S200x64_S64x128_S200x128_1_0_0_1_n_n.lhsNonContracting by decide)]
  rfl
theorem d2_l1 (i : S200x128.Idx) (q : dot_S200x64_S64x128_S200x128_1_0_0_1_n_n.contr.Idx) :
    (dot_S200x64_S64x128_S200x128_1_0_0_1_n_n.lhsIdx i q 1).val = (q ⟨0, by decide⟩).val :=
  dot_S200x64_S64x128_S200x128_1_0_0_1_n_n.lhsIdx_val_of_single rfl i q
theorem d2_r0 (i : S200x128.Idx) (q : dot_S200x64_S64x128_S200x128_1_0_0_1_n_n.contr.Idx) :
    (dot_S200x64_S64x128_S200x128_1_0_0_1_n_n.rhsIdx i q 0).val = (q ⟨0, by decide⟩).val :=
  dot_S200x64_S64x128_S200x128_1_0_0_1_n_n.rhsIdx_val_of_single rfl i q
theorem d2_r1 (i : S200x128.Idx) (q : dot_S200x64_S64x128_S200x128_1_0_0_1_n_n.contr.Idx) :
    (dot_S200x64_S64x128_S200x128_1_0_0_1_n_n.rhsIdx i q 1).val = (i 1).val := by
  unfold DotDims.rhsIdx
  rw [dif_neg (show ¬(1 : Fin S64x128.rank) ∈ dot_S200x64_S64x128_S200x128_1_0_0_1_n_n.rhsBatch by decide), dif_pos (show (1 : Fin S64x128.rank) ∈ dot_S200x64_S64x128_S200x128_1_0_0_1_n_n.rhsNonContracting by decide)]
  rfl

/-! The coordinate facts of the 200x32 by 32x128 product's dimension numbers. -/
theorem d3_l0 (i : S200x128.Idx) (q : dot_S200x32_S32x128_S200x128_1_0_0_1_n_n.contr.Idx) :
    (dot_S200x32_S32x128_S200x128_1_0_0_1_n_n.lhsIdx i q 0).val = (i 0).val := by
  unfold DotDims.lhsIdx
  rw [dif_neg (show ¬(0 : Fin S200x32.rank) ∈ dot_S200x32_S32x128_S200x128_1_0_0_1_n_n.lhsBatch by decide), dif_pos (show (0 : Fin S200x32.rank) ∈ dot_S200x32_S32x128_S200x128_1_0_0_1_n_n.lhsNonContracting by decide)]
  rfl
theorem d3_l1 (i : S200x128.Idx) (q : dot_S200x32_S32x128_S200x128_1_0_0_1_n_n.contr.Idx) :
    (dot_S200x32_S32x128_S200x128_1_0_0_1_n_n.lhsIdx i q 1).val = (q ⟨0, by decide⟩).val :=
  dot_S200x32_S32x128_S200x128_1_0_0_1_n_n.lhsIdx_val_of_single rfl i q
theorem d3_r0 (i : S200x128.Idx) (q : dot_S200x32_S32x128_S200x128_1_0_0_1_n_n.contr.Idx) :
    (dot_S200x32_S32x128_S200x128_1_0_0_1_n_n.rhsIdx i q 0).val = (q ⟨0, by decide⟩).val :=
  dot_S200x32_S32x128_S200x128_1_0_0_1_n_n.rhsIdx_val_of_single rfl i q
theorem d3_r1 (i : S200x128.Idx) (q : dot_S200x32_S32x128_S200x128_1_0_0_1_n_n.contr.Idx) :
    (dot_S200x32_S32x128_S200x128_1_0_0_1_n_n.rhsIdx i q 1).val = (i 1).val := by
  unfold DotDims.rhsIdx
  rw [dif_neg (show ¬(1 : Fin S32x128.rank) ∈ dot_S200x32_S32x128_S200x128_1_0_0_1_n_n.rhsBatch by decide), dif_pos (show (1 : Fin S32x128.rank) ∈ dot_S200x32_S32x128_S200x128_1_0_0_1_n_n.rhsNonContracting by decide)]
  rfl

/-! ### One rank's update at an element -/

/-- Element `(r, o)` after one rank's update: the accumulator's element plus
    `Σ_f (Σ_j oh[r, j] · x[j, f]) · w[0, f, o]`. -/
theorem step_apply (x : FVec Ideal S2000x64 .bf16) (acc : FVec Ideal S200x128 .f32) (oh : FVec Ideal S200x2000 .bf16)
    (wk : Vec Ideal S1x64x128 .bf16) (r : Fin 200) (o : Fin 128) :
    step x acc oh z64 wk (ix2 r o)
      = acc (ix2 r o) + ∑ f : Fin 64, (∑ j : Fin 2000, oh (ix2 r j) * x (ix2 j f)) * wk (ix3 (0 : Fin 1) f o) := by
  unfold step
  simp only [matmul]
  rw [addf_apply]
  congr 1
  rw [matmul_plain dot_S200x64_S64x128_S200x128_1_0_0_1_n_n rfl rfl d2_l0 d2_l1 d2_r0 d2_r1]
  refine Finset.sum_congr rfl fun f _ => ?_
  rw [truncf_apply, matmul_plain dot_S200x2000_S2000x64_S200x64_1_0_0_1_n_n rfl rfl d1_l0 d1_l1 d1_r0 d1_r1,
    shapeCast_1ab_ab_apply]

/-! ### The 0/1 matrix at an element -/

/-- Entry `(r, j)` of a rank's 0/1 matrix: one where the row's neighbour word is the counter's word at `j`. -/
theorem sel_apply (v2 : IVec S1x2000 32) (nbcol : Vec Ideal S200x1 .i32) (r : Fin 200) (j : Fin 2000) :
    sel (F := Ideal) v2 nbcol (ix2 r j) = if nbcol (ix2 r (0 : Fin 1)) = v2 (ix2 (0 : Fin 1) j) then (1 : EReal) else 0 := by
  unfold sel
  rw [truncf_apply, sitofp_apply, extui_apply]
  show ((((IntOp.cmpi .eq (broadcastTo S200x2000 nbcol Facts₀.broadcasts_S200x1_S200x2000 (ix2 r j))
    (broadcastTo S200x2000 v2 Facts₀.broadcasts_S1x2000_S200x2000 (ix2 r j))).setWidth 32).toInt : ℝ) : EReal) = _
  rw [broadcastTo_apply nbcol Facts₀.broadcasts_S200x1_S200x2000 (ix2 r j) (ix2 r (0 : Fin 1))
      (fun a => match a with | ⟨0, _⟩ => rfl | ⟨1, _⟩ => rfl),
    broadcastTo_apply v2 Facts₀.broadcasts_S1x2000_S200x2000 (ix2 r j) (ix2 (0 : Fin 1) j)
      (fun a => match a with | ⟨0, _⟩ => rfl | ⟨1, _⟩ => rfl)]
  by_cases h : nbcol (ix2 r (0 : Fin 1)) = v2 (ix2 (0 : Fin 1) j)
  · rw [if_pos h, StableHlo.Predicate.cmpi_eq_iff.mpr h]
    norm_num
  · rw [if_neg h, eq_zero_of_ne_one (fun h1 => h (StableHlo.Predicate.cmpi_eq_iff.mp h1))]
    norm_num

/-- The column counter's word at `j` is the numeral `j`. -/
theorem cols_apply (j : Fin 2000) : cols (ix2 (0 : Fin 1) j) = BitVec.ofNat 32 j.val :=
  iota_single_apply .tc S1x2000 32 1 Facts₀.iota_S1x2000_d1_w32 (ix2 (0 : Fin 1) j)

/-- Against the column counter: a neighbour word that is the numeral of `j₀ < 2000` meets the counter at `j₀` only,
    so the 0/1 row times a table's column picks the table's row `j₀`. -/
theorem pick_sum (w : BitVec 32) (j₀ : Fin 2000) (h : w = BitVec.ofNat 32 j₀.val) (g : Fin 2000 → EReal) :
    ∑ j : Fin 2000, (if w = cols (ix2 (0 : Fin 1) j) then (1 : EReal) else 0) * g j = g j₀ := by
  rw [Finset.sum_eq_single j₀]
  · rw [cols_apply, if_pos h, one_mul]
  · intro j _ hne
    rw [cols_apply, if_neg, zero_mul]
    rw [h]
    intro he
    apply hne
    have := congrArg BitVec.toNat he
    simp only [BitVec.toNat_ofNat] at this
    have h1 := j.isLt; have h2 := j₀.isLt
    exact Fin.ext (by omega)
  · intro hn; exact absurd (Finset.mem_univ _) hn

/-! ### The loads of the body

The body loads the neighbour block a column at a time and the weights a slab at a time. -/

/-- Column `k` of a 200 × 32 block, as a 200 × 1 column. -/
def colOf (x1 : Vec Ideal S200x32 .i32) (k : Fin 32) : Vec Ideal S200x1 .i32 := fun y => x1 (ix2 (y 0) k)
/-- Slab `k` of the 32 × 64 × 128 weights, as a 1 × 64 × 128 array. -/
def slabOf (x3 : Vec Ideal S32x64x128 .bf16) (k : Fin 32) : Vec Ideal S1x64x128 .bf16 := fun y => x3 (ix3 k (y 1) (y 2))

theorem colOf_apply (x1 : Vec Ideal S200x32 .i32) (k : Fin 32) (r : Fin 200) :
    colOf x1 k (ix2 r (0 : Fin 1)) = x1 (ix2 r k) := rfl
theorem slabOf_apply (x3 : Vec Ideal S32x64x128 .bf16) (k : Fin 32) (f : Fin 64) (o : Fin 128) :
    slabOf x3 k (ix3 (0 : Fin 1) f o) = x3 (ix3 k f o) := rfl

/-- The load of the 200 × 1 rectangle at column offset `k` is column `k`. -/
theorem ld_nbcol (x1 : Vec Ideal S200x32 .i32) (k : ℕ) (inb : ∀ a, (![0, k] : Fin 2 → ℕ) a + S200x1.size a ≤ S200x32.size a) :
    View.ld x1 (Rect.unit (s := S200x32) ![0, k] S200x1.size inb)
      = colOf x1 (⟨k, by have := inb 1; simp at this; omega⟩ : Fin 32) := by
  funext y
  show x1 _ = x1 _
  congr 1
  funext a
  match a with
  | ⟨0, _⟩ => exact Fin.ext (by show 0 + 1 * (y 0).val = (y 0).val; omega)
  | ⟨1, _⟩ => exact Fin.ext (by show k + 1 * (y 1).val = k; have := (y 1).isLt; simp at this; omega)

/-- The load of the 1 × 64 × 128 rectangle at slab offset `k` is slab `k`. -/
theorem ld_wslab (x3 : Vec Ideal S32x64x128 .bf16) (k : ℕ)
    (inb : ∀ a, (![k, 0, 0] : Fin 3 → ℕ) a + S1x64x128.size a ≤ S32x64x128.size a) :
    View.ld x3 (Rect.unit (s := S32x64x128) ![k, 0, 0] S1x64x128.size inb)
      = slabOf x3 (⟨k, by have := inb 0; simp at this; omega⟩ : Fin 32) := by
  funext y
  show x3 _ = x3 _
  congr 1
  funext a
  match a with
  | ⟨0, _⟩ => exact Fin.ext (by show k + 1 * (y 0).val = k; have := (y 0).isLt; simp at this; omega)
  | ⟨1, _⟩ => exact Fin.ext (by show 0 + 1 * (y 1).val = (y 1).val; omega)
  | ⟨2, _⟩ => exact Fin.ext (by show 0 + 1 * (y 2).val = (y 2).val; omega)

/-- The last two pieces: the sum of the ranks' accumulator and the distances' product, plus the bias row. -/
theorem pay1_apply (A B : FVec Ideal S200x128 .f32) (C : Vec Ideal S1x128 .f32) (r : Fin 200) (o : Fin 128) :
    k0_pay1 (F := Ideal) A B C (ix3 (0 : Fin 1) r o) = A (ix2 r o) + B (ix2 r o) + C (ix2 (0 : Fin 1) o) := by
  unfold k0_pay1
  rw [shapeCast_ab_1ab_apply, addf_apply, addf_apply, shapeCast_self,
    broadcastTo_apply C _ (ix2 r o) (ix2 (0 : Fin 1) o) (fun a => match a with | ⟨0, _⟩ => rfl | ⟨1, _⟩ => rfl)]

/-- The distances' product at an element: `Σ_k dist[r, k] · wd[k, o]`. -/
theorem pay24_apply (D : Vec Ideal S200x32 .f32) (Wd : Vec Ideal S32x128 .bf16) (r : Fin 200) (o : Fin 128) :
    k0_pay24 (F := Ideal) D Wd (ix2 r o) = ∑ k : Fin 32, D (ix2 r k) * Wd (ix2 k o) := by
  unfold k0_pay24
  simp only [matmul]
  rw [matmul_plain dot_S200x32_S32x128_S200x128_1_0_0_1_n_n rfl rfl d3_l0 d3_l1 d3_r0 d3_r1]
  refine Finset.sum_congr rfl fun k _ => ?_
  rw [truncf_apply, shapeCast_self]

/-- The feature table as the body reads it (the batch's 1 × 2000 × 64 block viewed 2000 × 64). -/
theorem pay2_apply (v0 : Vec Ideal S1x2000x64 .bf16) (j : Fin 2000) (f : Fin 64) :
    k0_pay2 (F := Ideal) v0 (ix2 j f) = v0 (ix3 (0 : Fin 1) j f) := by
  unfold k0_pay2
  rw [shapeCast_1ab_ab_apply]

/-- The accumulator's start: zero. -/
theorem zero_apply (i : S200x128.Idx) :
    broadcast S200x128 (Scalar.ofBits (F := Ideal) .f32 0x00000000#32) i = (0 : EReal) :=
  Ideal.ofBits_zero_f32

theorem hz3 : (![0, 0, 0] : Fin 3 → ℕ) = fun _ => 0 := by
  funext a; match a with | ⟨0, _⟩ => rfl | ⟨1, _⟩ => rfl | ⟨2, _⟩ => rfl
theorem hz2 : (![0, 0] : Fin 2 → ℕ) = fun _ => 0 := by
  funext a; match a with | ⟨0, _⟩ => rfl | ⟨1, _⟩ => rfl

/-! ### The whole body at an element -/

/-- ELEMENT `(0, r, o)` OF WHAT THE BODY STORES, from the blocks it loads: the 32 ranks' contributions, each
    `Σ_f (Σ_j [nb[r, k] = j] · x[0, j, f]) · w[k, f, o]`, then the distances' product and the bias. -/
theorem body_apply (x0 : Vec Ideal S1x2000x64 .bf16) (x1 : Vec Ideal S200x32 .i32) (x2 : Vec Ideal S200x32 .f32)
    (x3 : Vec Ideal S32x64x128 .bf16) (x4 : Vec Ideal S32x128 .bf16) (x5 : Vec Ideal S1x128 .f32) (r : Fin 200) (o : Fin 128) :
    out0_6 x0 x1 x2 x3 x4 x5 (ix3 (0 : Fin 1) r o)
      = (∑ k : Fin 32, ∑ f : Fin 64,
          (∑ j : Fin 2000, (if x1 (ix2 r k) = cols (ix2 (0 : Fin 1) j) then (1 : EReal) else 0) * x0 (ix3 (0 : Fin 1) j f))
            * x3 (ix3 k f o))
        + (∑ k : Fin 32, x2 (ix2 r k) * x4 (ix2 k o)) + x5 (ix2 (0 : Fin 1) o) := by
  unfold out0_6
  rw [View.canon_unit_zero hz3]
  simp only [View.ld_unit_zero (S := S1x2000x64) hz3, View.ld_unit_zero (S := S200x32) hz2,
    View.ld_unit_zero (S := S32x128) hz2, View.ld_unit_zero (S := S1x128) hz2]
  rw [pay1_apply]
  simp only [pay3_eq, pay4_eq, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq]
  iterate 32 rw [ld_nbcol]
  iterate 32 rw [ld_wslab]
  simp only [step_apply]
  rw [pay24_apply, zero_apply, zero_add]
  simp only [sel_apply, colOf_apply, slabOf_apply, pay2_apply]
  rw [sum32 (fun k : Fin 32 => ∑ f : Fin 64,
          (∑ j : Fin 2000, (if x1 (ix2 r k) = cols (ix2 (0 : Fin 1) j) then (1 : EReal) else 0) * x0 (ix3 (0 : Fin 1) j f))
            * x3 (ix3 k f o))]
  rfl

end AtIdeal

end Cert.Layer.Body

end
-- ==== Proof.Prefix.lean ====
/-
  What the kernel's call finds in the four arrays that the host operations of the program compute before the
  call, read at an index, on the extended reals: each entry is an entry of an ARGUMENT array as launched.
-/
import proofs.«421400_j16707422781891_1_alg».proof.Proof.Gen.KernelIdeal.Frame
import proofs.«421400_j16707422781891_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.Layer.Prefix

open Cert.KernelIdeal Cert.KernelIdeal.Gen Idealize.ShloMosaic Idealize.ShloMosaic.ValueIdx Idealize.ShloMosaic.TcCoe
open Idealize.SL.Sem

variable (m : (ℓ : Loc nD τ sig) → Buf (Elt Ideal) ℓ) (c : Dev nD)

/-- The bias: the argument array with a leading unit axis put on. -/
theorem V_v9_apply (o : Fin 128) :
    (V m c main_v9 : S1x128.Idx → EReal) (ix2 (0 : Fin 1) o)
      = (m ((c : Thread nD τ).loc main_arg4) : S128.Idx → EReal) (ix1 o) := by
  have e : (V m c main_v9 : S1x128.Idx → EReal)
      = shapeCast S1x128 (m ((c : Thread nD τ).loc main_arg4) : S128.Idx → EReal) Facts₀.shapeCasts_S128_S1x128 := by
    dsimp only [Gen.V, Gen.hostOps0]; after_results; rfl
  rw [e]
  exact shapeCast_a_1a_apply _ _ _ _

/-- The features: the argument array converted, and the conversion is the identity on the extended reals. -/
theorem V_v0_apply (B : Fin 32) (j : Fin 2000) (f : Fin 64) :
    (V m c main_v0 : S32x2000x64.Idx → EReal) (ix3 B j f)
      = (m ((c : Thread nD τ).loc main_arg0) : S32x2000x64.Idx → EReal) (ix3 B j f) := by
  have e : (V m c main_v0 : S32x2000x64.Idx → EReal)
      = truncf (F := Ideal) .bf16 (m ((c : Thread nD τ).loc main_arg0) : FVec Ideal S32x2000x64 .f32) Facts₀.bitsLt_bf16_f32 := by
    dsimp only [Gen.V, Gen.hostOps0]; after_results
  rw [e]
  rfl

/-- The weights read as 128 × 32 × 65 at `(o, k, e)` are the weights at row `o`, column `65 k + e`. -/
theorem w3_apply (A : S128x2080.Idx → EReal) (o : Fin 128) (k : Fin 32) (e : Fin 65) (q : Fin 2080)
    (hq : q.val = k.val * 65 + e.val) :
    shapeCast S128x32x65 A Facts₀.shapeCasts_S128x2080_S128x32x65 (ix3 o k e) = A (ix2 o q) :=
  shapeCast_apply A _ (ix3 o k e) (ix2 o q) (by
    rw [Shape.rowMajor_val_three, Shape.rowMajor_val_two]
    show o.val * 2080 + q.val = (o.val * 32 + k.val) * 65 + e.val
    omega)

/-- The distance columns: entry `(k, o)` is the weight at row `o`, column `65 k + 64`. -/
theorem V_v8_apply (k : Fin 32) (o : Fin 128) :
    (V m c main_v8 : S32x128.Idx → EReal) (ix2 k o)
      = (m ((c : Thread nD τ).loc main_arg3) : S128x2080.Idx → EReal) (ix2 o (Cert.Layer.wlast k)) := by
  have e : (V m c main_v8 : S32x128.Idx → EReal)
      = truncf (F := Ideal) .bf16
          (transpose S32x128 [1, 0]
            (shapeCast S128x32
              (extractStridedSlice S128x32x1 ![0, 0, 64]
                (shapeCast S128x32x65 (m ((c : Thread nD τ).loc main_arg3) : FVec Ideal S128x2080 .f32)
                  Facts₀.shapeCasts_S128x2080_S128x32x65)
                Facts₀.slices_S128x32x65_S128x32x1_0_0_64)
              Facts₀.shapeCasts_S128x32x1_S128x32)
            Facts₀.transposes_S128x32_S32x128_1_0 : FVec Ideal S32x128 .f32)
          Facts₀.bitsLt_bf16_f32 := by
    dsimp only [Gen.V, Gen.hostOps0]; after_results; rfl
  rw [e, truncf_apply]
  refine (transpose_ix2_apply _ _ k o).trans ?_
  refine (shapeCast_apply _ _ (ix2 o k) (ix3 o k (0 : Fin 1)) (by
    rw [Shape.rowMajor_val_three, Shape.rowMajor_val_two]
    show (o.val * 32 + k.val) * 1 + 0 = o.val * 32 + k.val
    omega)).trans ?_
  refine (extractStridedSlice_apply _ _ _ (ix3 o k (0 : Fin 1)) (ix3 o k (⟨64, by omega⟩ : Fin 65)) (fun ax => by
    match ax with
    | ⟨0, _⟩ => exact (Nat.zero_add _).symm
    | ⟨1, _⟩ => exact (Nat.zero_add _).symm
    | ⟨2, _⟩ => rfl)).trans ?_
  exact w3_apply _ o k _ _ rfl

/-- The feature columns: entry `(k, f, o)` is the weight at row `o`, column `65 k + f`. -/
theorem V_v6_apply (k : Fin 32) (f : Fin 64) (o : Fin 128) :
    (V m c main_v6 : S32x64x128.Idx → EReal) (ix3 k f o)
      = (m ((c : Thread nD τ).loc main_arg3) : S128x2080.Idx → EReal) (ix2 o (Cert.Layer.wcol k f)) := by
  have e : (V m c main_v6 : S32x64x128.Idx → EReal)
      = truncf (F := Ideal) .bf16
          (transpose S32x64x128 [1, 2, 0]
            (extractStridedSlice S128x32x64 ![0, 0, 0]
              (shapeCast S128x32x65 (m ((c : Thread nD τ).loc main_arg3) : FVec Ideal S128x2080 .f32)
                Facts₀.shapeCasts_S128x2080_S128x32x65)
              Facts₀.slices_S128x32x65_S128x32x64_0_0_0)
            Facts₀.transposes_S128x32x64_S32x64x128_1_2_0 : FVec Ideal S32x64x128 .f32)
          Facts₀.bitsLt_bf16_f32 := by
    dsimp only [Gen.V, Gen.hostOps0]; after_results; rfl
  rw [e, truncf_apply]
  refine (transpose_apply _ _ _ (ix3 k f o) (ix3 o k f) (fun b => by
    match b with
    | ⟨0, _⟩ => rfl
    | ⟨1, _⟩ => rfl
    | ⟨2, _⟩ => rfl)).trans ?_
  refine (extractStridedSlice_apply _ _ _ (ix3 o k f) (ix3 o k (⟨f.val, by omega⟩ : Fin 65)) (fun ax => by
    match ax with
    | ⟨0, _⟩ => exact (Nat.zero_add _).symm
    | ⟨1, _⟩ => exact (Nat.zero_add _).symm
    | ⟨2, _⟩ => exact (Nat.zero_add _).symm)).trans ?_
  exact w3_apply _ o k _ _ rfl

end Cert.Layer.Prefix

end
-- ==== Proof.KernelValue.lean ====
/-
  From the body's blocks to the kernel's result array.

  The pallas_call runs the body at 32 × 10 grid points `(B, nn)`. At a point the body sees batch `B`'s feature table
  (block `(B, 0, 0)` of the features, whole along the node and feature axes), rows `200·nn … 200·nn + 199` of the
  neighbour table and of the distances, and the whole weight arrays; what it stores goes back to block `(B, nn, 0)`
  of the result. The blocks of the result tile it, so the result array ends as the one function whose block at every
  point is what the body stored there — and by the body's value at an element, with the neighbour words read as
  node indices, that function is the layer `G` of the argument arrays.
-/
import proofs.«421400_j16707422781891_1_alg».proof.Proof.Gen.KernelIdeal.Value
import proofs.«421400_j16707422781891_1_alg».proof.Proof.Body
import proofs.«421400_j16707422781891_1_alg».proof.Proof.Prefix
import Idealize.ShloMosaic.Lib.Pipeline.Value
import Idealize.ShloMosaic.Lib.ValueIdx

set_option maxRecDepth 16384

noncomputable section

namespace Cert.Layer.Kernel

open Cert.KernelIdeal Cert.KernelIdeal.Gen Idealize.ShloMosaic Idealize.ShloMosaic.ValueIdx Idealize.ShloMosaic.TcCoe
open Idealize.SL.Sem
open Idealize.ShloMosaic.Pipeline (Dat)

variable (m : (ℓ : Loc nD τ sig) → Buf (Elt Ideal) ℓ) (ρ : Dev nD → PrngReg)

/-! ## The index maps over the grid -/

/-- The printed index maps, decided over the 320 points: the feature window follows the result's batch block and is
    whole on its other axes; the neighbour and distance windows follow the result's node block; the weight and
    bias windows do not move; the result's block indices stay in their ranges. -/
theorem idx_facts : ∀ t : Fin cfg0.N,
    win0_0.index t (0 : Fin 3) = win0_6.index t (0 : Fin 3) ∧ win0_0.index t (1 : Fin 3) = 0 ∧ win0_0.index t (2 : Fin 3) = 0
    ∧ win0_1.index t (0 : Fin 2) = win0_6.index t (1 : Fin 3) ∧ win0_1.index t (1 : Fin 2) = 0
    ∧ win0_2.index t (0 : Fin 2) = win0_6.index t (1 : Fin 3) ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) < 32 ∧ win0_6.index t (1 : Fin 3) < 10 ∧ win0_6.index t (2 : Fin 3) = 0 :=
  (by decide +kernel : ∀ t : Fin grid0.N, _)

/-- Every block `(B, nn, 0)` of the result is the point `10·B + nn`'s. -/
theorem idx_onto : ∀ (q0 : Fin 32) (q1 : Fin 10),
    win0_6.index (⟨q0.val * 10 + q1.val, by have := q0.isLt; have := q1.isLt; show _ < 320; omega⟩ : Fin cfg0.N) = ![q0.val, q1.val, 0] :=
  (by decide +kernel : ∀ (q0 : Fin 32) (q1 : Fin 10),
    win0_6.index (⟨q0.val * 10 + q1.val, by have := q0.isLt; have := q1.isLt; show _ < 320; omega⟩ : Fin grid0.N) = ![q0.val, q1.val, 0])

/-! ## The input blocks at a point, read off the argument arrays -/

section Blocks
variable (c : Dev nD) (t : Fin cfg0.N)

/-- The batch block and the node block of point `t`. -/
def bOf : Fin 32 := ⟨win0_6.index t (0 : Fin 3), (idx_facts t).2.2.2.2.2.2.2.2.2.2.2.2.2.2.1⟩
def nOf : Fin 10 := ⟨win0_6.index t (1 : Fin 3), (idx_facts t).2.2.2.2.2.2.2.2.2.2.2.2.2.2.2.1⟩
/-- Row `r` of point `t`'s node block, as a node. -/
def rowOf (r : Fin 200) : Fin 2000 := ⟨(nOf t).val * 200 + r.val, by have := (nOf t).isLt; have := r.isLt; omega⟩

/-- The six input blocks at the point, at their literal types. -/
abbrev xblk : Vec Ideal S1x2000x64 .bf16 := iblk m c 0 t
abbrev nblk : Vec Ideal S200x32 .i32 := iblk m c 1 t
abbrev dblk : Vec Ideal S200x32 .f32 := iblk m c 2 t
abbrev wblk : Vec Ideal S32x64x128 .bf16 := iblk m c 3 t
abbrev wdblk : Vec Ideal S32x128 .bf16 := iblk m c 4 t
abbrev bblk : Vec Ideal S1x128 .f32 := iblk m c 5 t

/-- The feature block is batch `bOf t` of the features. -/
theorem xblk_apply (j : Fin 2000) (f : Fin 64) :
    xblk m c t (ix3 (0 : Fin 1) j f) = (m ((c : Thread nD τ).loc main_arg0) : S32x2000x64.Idx → EReal) (ix3 (bOf t) j f) := by
  obtain ⟨e0, e1, e2, -⟩ := idx_facts t
  refine Eq.trans ?_ (Cert.Layer.Prefix.V_v0_apply m c (bOf t) j f)
  show V m c main_v0 (((cfg0.win 0).blk t).view.emb (ix3 (0 : Fin 1) j f)) = V m c main_v0 (ix3 (bOf t) j f)
  refine congrArg (V m c main_v0) (funext fun a => Fin.ext ?_)
  match a with
  | ⟨0, _⟩ => show win0_0.index t (0 : Fin 3) * 1 + 1 * 0 = win0_6.index t (0 : Fin 3); omega
  | ⟨1, _⟩ => show win0_0.index t (1 : Fin 3) * 2000 + 1 * j.val = j.val; omega
  | ⟨2, _⟩ => show win0_0.index t (2 : Fin 3) * 64 + 1 * f.val = f.val; omega

/-- The neighbour block is rows `200·nOf t …` of the neighbour table. -/
theorem nblk_apply (r : Fin 200) (k : Fin 32) :
    nblk m c t (ix2 r k) = (m ((c : Thread nD τ).loc main_arg1) : S2000x32.Idx → BitVec 32) (ix2 (rowOf t r) k) := by
  obtain ⟨-, -, -, e0, e1, -⟩ := idx_facts t
  refine Eq.trans ?_ (congrFun (V_main_arg1 m c) (ix2 (rowOf t r) k))
  show V m c main_arg1 (((cfg0.win 1).blk t).view.emb (ix2 r k)) = V m c main_arg1 (ix2 (rowOf t r) k)
  refine congrArg (V m c main_arg1) (funext fun a => Fin.ext ?_)
  match a with
  | ⟨0, _⟩ => show win0_1.index t (0 : Fin 2) * 200 + 1 * r.val = win0_6.index t (1 : Fin 3) * 200 + r.val; omega
  | ⟨1, _⟩ => show win0_1.index t (1 : Fin 2) * 32 + 1 * k.val = k.val; omega

/-- The distance block is the same rows of the distances. -/
theorem dblk_apply (r : Fin 200) (k : Fin 32) :
    dblk m c t (ix2 r k) = (m ((c : Thread nD τ).loc main_arg2) : S2000x32.Idx → EReal) (ix2 (rowOf t r) k) := by
  obtain ⟨-, -, -, -, -, e0, e1, -⟩ := idx_facts t
  refine Eq.trans ?_ (congrFun (V_main_arg2 m c) (ix2 (rowOf t r) k))
  show V m c main_arg2 (((cfg0.win 2).blk t).view.emb (ix2 r k)) = V m c main_arg2 (ix2 (rowOf t r) k)
  refine congrArg (V m c main_arg2) (funext fun a => Fin.ext ?_)
  match a with
  | ⟨0, _⟩ => show win0_2.index t (0 : Fin 2) * 200 + 1 * r.val = win0_6.index t (1 : Fin 3) * 200 + r.val; omega
  | ⟨1, _⟩ => show win0_2.index t (1 : Fin 2) * 32 + 1 * k.val = k.val; omega

/-- The weight slabs are the feature columns of `W`, rank by rank. -/
theorem wblk_apply (k : Fin 32) (f : Fin 64) (o : Fin 128) :
    wblk m c t (ix3 k f o) = (m ((c : Thread nD τ).loc main_arg3) : S128x2080.Idx → EReal) (ix2 o (Cert.Layer.wcol k f)) := by
  obtain ⟨-, -, -, -, -, -, -, e0, e1, e2, -⟩ := idx_facts t
  refine Eq.trans ?_ (Cert.Layer.Prefix.V_v6_apply m c k f o)
  show V m c main_v6 (((cfg0.win 3).blk t).view.emb (ix3 k f o)) = V m c main_v6 (ix3 k f o)
  refine congrArg (V m c main_v6) (funext fun a => Fin.ext ?_)
  match a with
  | ⟨0, _⟩ => show win0_3.index t (0 : Fin 3) * 32 + 1 * k.val = k.val; omega
  | ⟨1, _⟩ => show win0_3.index t (1 : Fin 3) * 64 + 1 * f.val = f.val; omega
  | ⟨2, _⟩ => show win0_3.index t (2 : Fin 3) * 128 + 1 * o.val = o.val; omega

/-- The distance weights are the distance columns of `W`. -/
theorem wdblk_apply (k : Fin 32) (o : Fin 128) :
    wdblk m c t (ix2 k o) = (m ((c : Thread nD τ).loc main_arg3) : S128x2080.Idx → EReal) (ix2 o (Cert.Layer.wlast k)) := by
  obtain ⟨-, -, -, -, -, -, -, -, -, -, e0, e1, -⟩ := idx_facts t
  refine Eq.trans ?_ (Cert.Layer.Prefix.V_v8_apply m c k o)
  show V m c main_v8 (((cfg0.win 4).blk t).view.emb (ix2 k o)) = V m c main_v8 (ix2 k o)
  refine congrArg (V m c main_v8) (funext fun a => Fin.ext ?_)
  match a with
  | ⟨0, _⟩ => show win0_4.index t (0 : Fin 2) * 32 + 1 * k.val = k.val; omega
  | ⟨1, _⟩ => show win0_4.index t (1 : Fin 2) * 128 + 1 * o.val = o.val; omega

/-- The bias row is the bias. -/
theorem bblk_apply (o : Fin 128) :
    bblk m c t (ix2 (0 : Fin 1) o) = (m ((c : Thread nD τ).loc main_arg4) : S128.Idx → EReal) (ix1 o) := by
  obtain ⟨-, -, -, -, -, -, -, -, -, -, -, -, e0, e1, -⟩ := idx_facts t
  refine Eq.trans ?_ (Cert.Layer.Prefix.V_v9_apply m c o)
  show V m c main_v9 (((cfg0.win 5).blk t).view.emb (ix2 (0 : Fin 1) o)) = V m c main_v9 (ix2 (0 : Fin 1) o)
  refine congrArg (V m c main_v9) (funext fun a => Fin.ext ?_)
  match a with
  | ⟨0, _⟩ => show win0_5.index t (0 : Fin 2) * 1 + 1 * 0 = 0; omega
  | ⟨1, _⟩ => show win0_5.index t (1 : Fin 2) * 128 + 1 * o.val = o.val; omega

end Blocks

/-! ## What a point writes back -/

/-- The layer of the argument arrays as launched, on core `c`. -/
abbrev Gm (c : Dev nD) : S32x2000x128.Idx → EReal :=
  Cert.Layer.G (m ((c : Thread nD τ).loc main_arg0)) (Cert.Layer.nodeOf (m ((c : Thread nD τ).loc main_arg1)))
    (m ((c : Thread nD τ).loc main_arg2)) (m ((c : Thread nD τ).loc main_arg3)) (m ((c : Thread nD τ).loc main_arg4))

/-- Element `(0, r, o)` of point `t`'s result block is element `(bOf t, rowOf t r, o)` of the result. -/
theorem emb6 (t : Fin cfg0.N) (r : Fin 200) (o : Fin 128) :
    ((cfg0.win 6).blk t).view.emb (ix3 (0 : Fin 1) r o) = ix3 (bOf t) (rowOf t r) o := by
  have e2 := (idx_facts t).2.2.2.2.2.2.2.2.2.2.2.2.2.2.2.2
  funext a; apply Fin.ext
  match a with
  | ⟨0, _⟩ => show win0_6.index t (0 : Fin 3) * 1 + 1 * 0 = win0_6.index t (0 : Fin 3); omega
  | ⟨1, _⟩ => show win0_6.index t (1 : Fin 3) * 200 + 1 * r.val = win0_6.index t (1 : Fin 3) * 200 + r.val; omega
  | ⟨2, _⟩ => show win0_6.index t (2 : Fin 3) * 128 + 1 * o.val = o.val; omega

/-- WHAT POINT `t` WRITES BACK is block `t` of the layer of the argument arrays, when the neighbour words are in
    range: the body's value at an element, its blocks read off the arrays, the 0/1 row picking the neighbour's
    features. -/
theorem flushed_eq (c : Dev nD) (t : Fin cfg0.N)
    (hrange : ∀ (n : Fin 2000) (k : Fin 32),
      ((m ((c : Thread nD τ).loc main_arg1) : S2000x32.Idx → BitVec 32) (ix2 n k)).toNat < 2000) :
    (dats m 0 c).flushed 6 t = ((cfg0.win 6).blk t).view.read (Elt Ideal) (Gm m c) := by
  rw [Cert.KernelIdeal.Value.flushed6]
  funext y
  obtain ⟨u, r, o, rfl⟩ : ∃ (u : Fin 1) (r : Fin 200) (o : Fin 128), y = ix3 u r o := ⟨y 0, y 1, y 2, eq_ix3 y⟩
  obtain rfl : u = 0 := Subsingleton.elim _ _
  show out0_6 (xblk m c t) (nblk m c t) (dblk m c t) (wblk m c t) (wdblk m c t) (bblk m c t) (ix3 (0 : Fin 1) r o)
    = Gm m c (((cfg0.win 6).blk t).view.emb (ix3 (0 : Fin 1) r o))
  rw [emb6, Cert.Layer.Body.body_apply]
  refine congrArg₂ (· + ·) (congrArg₂ (· + ·) ?_ ?_) ?_
  · refine Finset.sum_congr rfl fun k _ => Finset.sum_congr rfl fun f _ => ?_
    rw [nblk_apply m c t r k, wblk_apply m c t k f o,
      Cert.Layer.Body.pick_sum _ (Cert.Layer.nodeOf (m ((c : Thread nD τ).loc main_arg1)) (rowOf t r) k)
        (Cert.Layer.word_eq_of_lt _ _ _ (hrange _ _)) (fun j => xblk m c t (ix3 (0 : Fin 1) j f)),
      xblk_apply m c t _ f]
  · refine Finset.sum_congr rfl fun k _ => ?_
    rw [dblk_apply m c t r k, wdblk_apply m c t k o]
  · exact bblk_apply m c t o

/-! ## The result's blocks tile it -/

/-- An index of the result is in point `t`'s block iff each coordinate is in the block's range on its axis. -/
theorem mem_blk6 (t : Fin cfg0.N) (i : S32x2000x128.Idx) :
    i ∈ ((cfg0.win 6).blk t).view.set ↔ ∀ a : Fin 3, win0_6.index t a * S1x200x128.size a ≤ (i a).val
      ∧ (i a).val < win0_6.index t a * S1x200x128.size a + S1x200x128.size a := by
  show i ∈ ((View.whole main_v10).slice (win0_6.rect t)).set ↔ _
  rw [View.set_slice_whole, Rect.mem_set_unit]
  exact Iff.rfl

/-- Every index `(B, n, o)` of the result is in the block of the point `10·B + n / 200`. -/
theorem cover (i : S32x2000x128.Idx) :
    ∃ t : Fin cfg0.N, (cfg0.win 6).flush t = true ∧ i ∈ ((cfg0.win 6).blk t).view.set := by
  have h0 : (i 0).val < 32 := (i 0).isLt
  have h1 : (i 1).val < 2000 := (i 1).isLt
  have h2 : (i 2).val < 128 := (i 2).isLt
  let tt : Fin cfg0.N := ⟨(i 0).val * 10 + (i 1).val / 200, by show _ < 320; omega⟩
  have ht : win0_6.index tt = ![(i 0).val, (i 1).val / 200, 0] := idx_onto ⟨(i 0).val, h0⟩ ⟨(i 1).val / 200, by omega⟩
  refine ⟨tt, flush0_6 tt, ?_⟩
  rw [mem_blk6]
  have q0 := congrFun ht (0 : Fin 3)
  have q1 := congrFun ht (1 : Fin 3)
  have q2 := congrFun ht (2 : Fin 3)
  intro a
  match a with
  | ⟨0, _⟩ => exact ⟨by rw [show (⟨0, _⟩ : Fin 3) = (0 : Fin 3) from rfl, q0]; show (i 0).val * 1 ≤ (i 0).val; omega,
      by rw [show (⟨0, _⟩ : Fin 3) = (0 : Fin 3) from rfl, q0]; show (i 0).val < (i 0).val * 1 + 1; omega⟩
  | ⟨1, _⟩ => exact ⟨by rw [show (⟨1, _⟩ : Fin 3) = (1 : Fin 3) from rfl, q1]; show (i 1).val / 200 * 200 ≤ (i 1).val; omega,
      by rw [show (⟨1, _⟩ : Fin 3) = (1 : Fin 3) from rfl, q1]; show (i 1).val < (i 1).val / 200 * 200 + 200; omega⟩
  | ⟨2, _⟩ => exact ⟨by rw [show (⟨2, _⟩ : Fin 3) = (2 : Fin 3) from rfl, q2]; show 0 * 128 ≤ (i 2).val; omega,
      by rw [show (⟨2, _⟩ : Fin 3) = (2 : Fin 3) from rfl, q2]; show (i 2).val < 0 * 128 + 128; omega⟩

/-! ## The result array, and the run -/

/-- THE RESULT ARRAY after the run is the layer of the argument arrays. -/
theorem final6 (c : Dev nD)
    (hrange : ∀ (n : Fin 2000) (k : Fin 32),
      ((m ((c : Thread nD τ).loc main_arg1) : S2000x32.Idx → BitVec 32) (ix2 n k)).toNat < 2000) :
    (dats m 0 c).arrAt 6 cfg0.N = Gm m c :=
  (dats m 0 c).arrAt_eq_of_cover 6 (Gm m c) (fun t _ => flushed_eq m c t hrange) cover

/-- Every weakly fair execution of the kernel's program, from a memory whose neighbour table is in range, ends with the
    result at the layer of the arguments and the arguments unchanged. -/
theorem run (hrange : ∀ (c : Dev nD) (n : Fin 2000) (k : Fin 32),
      ((m ((c : Thread nD τ).loc main_arg1) : S2000x32.Idx → BitVec 32) (ix2 n k)).toNat < 2000) :
    θ_run defs (onTc (τ := τ) (main (F := Ideal))) ⟨m, fun _ => 0, ρ⟩ fun r => ∀ c : Dev nD,
      r.2.mem ((c : Thread nD τ).loc main_v10) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final6 m c (hrange c)), (h c).2⟩)
    (Cert.KernelIdeal.Value.run_blocks m ρ)

end Cert.Layer.Kernel

end
-- ==== Proof.RefValue.lean ====
/-
  The reference program's result is the layer `Cert.Layer.G`.

  The reference gathers, for every batch `B`, node `n` and neighbour rank `k`, the 64 features of the node the table
  names (a table word `w` is first replaced by `w + 2000` when it is negative as a signed word, then read signed and
  clamped into `[0, 1999]`: for a word whose value is below 2000 all of this is the word's value itself), appends the
  distance `dist[n, k]` as a 65th entry, flattens the 32 × 65 entries into one row of 2080, contracts that row with the
  rows of `W` and adds the bias. Read at an index `(B, n, o)` that is

    Σ_{c < 2080} row[B, n, c] · W[o, c] + b[o],   row[B, n, 65 k + f] = x[B, nb[n, k], f],  row[B, n, 65 k + 64] = dist[n, k],

  and splitting the 2080 columns rank by rank (64 feature columns, then the distance column) gives `G`'s two sums.
-/
import proofs.«421400_j16707422781891_1_alg».proof.Proof.Spec
import proofs.«421400_j16707422781891_1_alg».proof.Proof.Gen.ReferenceIdeal.Read
import Idealize.ShloMosaic.Lib.StableHlo.Predicate
import Mathlib.Algebra.BigOperators.Fin
import Mathlib.Algebra.BigOperators.Group.Finset.Basic

noncomputable section

namespace Cert.Layer.Ref

open Idealize.ShloMosaic Idealize.ShloMosaic.ValueIdx Idealize.ShloMosaic.StableHlo Cert.ReferenceIdeal Cert.ReferenceIdeal.Gen Cert.ReferenceIdeal.Read
open scoped BigOperators

/-- The gather's dimension numbers: offset axes 0 and 3 of the result, operand axis 1 collapsed and indexed by the
    start index, slices of 32 × 1 × 64. -/
abbrev gd := gather_S32x2000x64_S2000x32x1_S32x2000x32x64_03_1_n_n_1_2_32164

/-- THE GATHER READ AT `(B, n, k, f)`: the operand at batch `B`, feature `f`, and the node the start index `idx[n, k, 0]`
    names, read signed and clamped into `[0, 1999]`. Axis 0 and axis 2 of the operand take the result's offset
    coordinates (axes 0 and 3), axis 1 takes the clamped start; no axis is a batching axis. -/
theorem gather_apply (x0 : (⟨S32x2000x64, .f32⟩ : BufTy).Contents (Elt Ideal))
    (idx : (⟨S2000x32x1, .i32⟩ : BufTy).Contents (Elt Ideal))
    (B : Fin 32) (n : Fin 2000) (k : Fin 32) (f : Fin 64) :
    Host.gather gd x0 idx (ix4 B n k f)
      = x0 (ix3 B ⟨min (idx (ix3 n k (0 : Fin 1))).toInt.toNat 1999, by omega⟩ f) := by
  unfold Host.gather
  congr 1
  funext a
  refine Fin.ext ?_
  match a with
  | ⟨0, _⟩ =>
    show gd.start (ix4 B n k f) idx 0 + gd.batchCoord (ix4 B n k f) 0 + gd.offCoord (ix4 B n k f) 0 = B.val
    rw [GatherDims.batchCoord_eq_zero _ _ _ List.not_mem_nil]
    unfold GatherDims.start GatherDims.offCoord
    rw [dif_neg (show ¬(0 : Fin S32x2000x64.rank) ∈ gd.startIndexMap by decide),
      dif_pos (show (0 : Fin S32x2000x64.rank) ∈ gd.sKept by decide)]
    have e : (gd.offsetDims[List.idxOf (0 : Fin S32x2000x64.rank) gd.sKept]'(by decide)) = (0 : Fin S32x2000x32x64.rank) := by decide
    rw [e]
    exact Nat.zero_add _
  | ⟨1, _⟩ =>
    show gd.start (ix4 B n k f) idx 1 + gd.batchCoord (ix4 B n k f) 1 + gd.offCoord (ix4 B n k f) 1 = _
    rw [GatherDims.batchCoord_eq_zero _ _ _ List.not_mem_nil,
      GatherDims.offCoord_eq_zero _ _ _ (show ¬(1 : Fin S32x2000x64.rank) ∈ gd.sKept by decide)]
    unfold GatherDims.start
    rw [dif_pos (show (1 : Fin S32x2000x64.rank) ∈ gd.startIndexMap by decide)]
    have hsi : gd.siIdx (ix4 B n k f) ⟨List.idxOf (1 : Fin S32x2000x64.rank) gd.startIndexMap,
        List.idxOf_lt_length_iff.2 (by decide)⟩ = ix3 n k (0 : Fin 1) := by
      funext b; refine Fin.ext ?_
      match b with
      | ⟨0, _⟩ => rfl
      | ⟨1, _⟩ => rfl
      | ⟨2, _⟩ => rfl
    rw [hsi]
    rfl
  | ⟨2, _⟩ =>
    show gd.start (ix4 B n k f) idx 2 + gd.batchCoord (ix4 B n k f) 2 + gd.offCoord (ix4 B n k f) 2 = f.val
    rw [GatherDims.batchCoord_eq_zero _ _ _ List.not_mem_nil]
    unfold GatherDims.start GatherDims.offCoord
    rw [dif_neg (show ¬(2 : Fin S32x2000x64.rank) ∈ gd.startIndexMap by decide),
      dif_pos (show (2 : Fin S32x2000x64.rank) ∈ gd.sKept by decide)]
    have e : (gd.offsetDims[List.idxOf (2 : Fin S32x2000x64.rank) gd.sKept]'(by decide)) = (3 : Fin S32x2000x32x64.rank) := by decide
    rw [e]
    exact Nat.zero_add _

/-- The start indices are the table itself where the table's word is below 2000: such a word is not negative as a
    signed word, so the select keeps it and does not add 2000. -/
theorem v5_at (x1 : (⟨S2000x32, .i32⟩ : BufTy).Contents (Elt Ideal)) (n : Fin 2000) (k : Fin 32)
    (h : (x1 (ix2 n k)).toNat < 2000) :
    val_main_v5 (F := Ideal) x1 (ix3 n k (0 : Fin 1)) = x1 (ix2 n k) := by
  rw [val_main_v5_apply]
  have e : idx_main_v5 (ix3 n k (0 : Fin 1)) = ix2 n k := by
    funext a; match a with | ⟨0, _⟩ => rfl | ⟨1, _⟩ => rfl
  rw [e, val_main_v4_apply, val_main_v1_apply, val_main_v0_apply, val_main_c_apply]
  have hc : IntOp.cmpi .slt (x1 (ix2 n k)) 0#32 = 0#1 :=
    eq_zero_of_ne_one fun h1 =>
      Nat.not_lt_zero _ ((Predicate.slt_iff_toNat (by omega) (by decide)).1 h1)
  rw [hc, select_zero]

/-- The distances, broadcast along the batch axis and given a unit last axis, read `dist[n, k]`. -/
theorem v8_at (x2 : (⟨S2000x32, .f32⟩ : BufTy).Contents (Elt Ideal)) (B : Fin 32) (n : Fin 2000) (k : Fin 32) :
    val_main_v8 (F := Ideal) x2 (ix4 B n k (0 : Fin 1)) = x2 (ix2 n k) := by
  rw [val_main_v8_apply, val_main_v7_apply]
  congr 1
  funext a; match a with | ⟨0, _⟩ => rfl | ⟨1, _⟩ => rfl

/-- The concatenation at a position below 64 on its last axis reads the gathered features. -/
theorem v9_left (x0 : (⟨S32x2000x64, .f32⟩ : BufTy).Contents (Elt Ideal)) (x1 : (⟨S2000x32, .i32⟩ : BufTy).Contents (Elt Ideal))
    (x2 : (⟨S2000x32, .f32⟩ : BufTy).Contents (Elt Ideal)) (B : Fin 32) (n : Fin 2000) (k : Fin 32) (f : Fin 64) :
    val_main_v9 (F := Ideal) x0 x1 x2 (ix4 B n k f.castSucc) = val_main_v6 (F := Ideal) x0 x1 (ix4 B n k f) := by
  unfold val_main_v9
  exact concatenate_pair_apply_left 3 _ _ concatenates_S32x2000x32x64_S32x2000x32x1_S32x2000x32x65_d3
    (ix4 B n k f.castSucc) rfl (ix4 B n k f)
    (fun b => match b with | ⟨0, _⟩ => rfl | ⟨1, _⟩ => rfl | ⟨2, _⟩ => rfl | ⟨3, _⟩ => rfl)

/-- The concatenation at position 64 on its last axis reads the distance entry. -/
theorem v9_right (x0 : (⟨S32x2000x64, .f32⟩ : BufTy).Contents (Elt Ideal)) (x1 : (⟨S2000x32, .i32⟩ : BufTy).Contents (Elt Ideal))
    (x2 : (⟨S2000x32, .f32⟩ : BufTy).Contents (Elt Ideal)) (B : Fin 32) (n : Fin 2000) (k : Fin 32) :
    val_main_v9 (F := Ideal) x0 x1 x2 (ix4 B n k (Fin.last 64)) = val_main_v8 (F := Ideal) x2 (ix4 B n k (0 : Fin 1)) := by
  unfold val_main_v9
  exact concatenate_pair_apply_right 3 _ _ concatenates_S32x2000x32x64_S32x2000x32x1_S32x2000x32x65_d3
    (ix4 B n k (Fin.last 64)) rfl rfl (ix4 B n k (0 : Fin 1))
    (fun b hb => match b, hb with
      | ⟨0, _⟩, _ => rfl | ⟨1, _⟩, _ => rfl | ⟨2, _⟩, _ => rfl | ⟨3, _⟩, hb => absurd rfl hb) rfl

/-- The columns of `W`, rank by rank: column `65 k + r` is position `r` of rank `k`. -/
def colEquiv : Fin 32 × Fin 65 ≃ Fin 2080 where
  toFun p := ⟨p.1.val * 65 + p.2.val, by have := p.1.isLt; have := p.2.isLt; omega⟩
  invFun c := (⟨c.val / 65, by have := c.isLt; omega⟩, ⟨c.val % 65, by omega⟩)
  left_inv p := by
    have h1 := p.1.isLt; have h2 := p.2.isLt
    refine Prod.ext (Fin.ext ?_) (Fin.ext ?_)
    · show (p.1.val * 65 + p.2.val) / 65 = p.1.val; omega
    · show (p.1.val * 65 + p.2.val) % 65 = p.2.val; omega
  right_inv c := by
    refine Fin.ext ?_
    show c.val / 65 * 65 + c.val % 65 = c.val; omega

/-- A sum over the 2080 columns is the sum over the ranks of the 64 feature columns plus the sum over the ranks of
    the distance column. -/
theorem sum_cols {M : Type*} [AddCommMonoid M] (F : Fin 2080 → M) :
    ∑ c : Fin 2080, F c = (∑ k : Fin 32, ∑ f : Fin 64, F (wcol k f)) + ∑ k : Fin 32, F (wlast k) := by
  rw [← Equiv.sum_comp colEquiv F, Fintype.sum_prod_type, ← Finset.sum_add_distrib]
  refine Finset.sum_congr rfl fun k _ => ?_
  rw [Fin.sum_univ_castSucc]
  rfl

/-- The flattened row at column `65 k + f`, `f < 64`, is entry `f` of rank `k`: the row-major position
    `((2000 B + n) · 2080 + 65 k + f)` has the coordinates `(B, n, k, f)` in the shape 32 × 2000 × 32 × 65. -/
theorem v10_wcol (x0 : (⟨S32x2000x64, .f32⟩ : BufTy).Contents (Elt Ideal)) (x1 : (⟨S2000x32, .i32⟩ : BufTy).Contents (Elt Ideal))
    (x2 : (⟨S2000x32, .f32⟩ : BufTy).Contents (Elt Ideal)) (B : Fin 32) (n : Fin 2000) (k : Fin 32) (f : Fin 64) :
    val_main_v10 (F := Ideal) x0 x1 x2 (ix3 B n (wcol k f)) = val_main_v9 (F := Ideal) x0 x1 x2 (ix4 B n k f.castSucc) := by
  rw [val_main_v10_apply]
  congr 1
  funext a; refine Fin.ext ?_
  have hB := B.isLt; have hn := n.isLt; have hk := k.isLt; have hf := f.isLt
  match a with
  | ⟨0, _⟩ => show ((B.val * 2000 + n.val) * 2080 + (k.val * 65 + f.val)) / 4160000 = B.val; omega
  | ⟨1, _⟩ => show ((B.val * 2000 + n.val) * 2080 + (k.val * 65 + f.val)) / 2080 % 2000 = n.val; omega
  | ⟨2, _⟩ => show ((B.val * 2000 + n.val) * 2080 + (k.val * 65 + f.val)) / 65 % 32 = k.val; omega
  | ⟨3, _⟩ => show ((B.val * 2000 + n.val) * 2080 + (k.val * 65 + f.val)) % 65 = f.val; omega

/-- The flattened row at column `65 k + 64` is entry 64 of rank `k`. -/
theorem v10_wlast (x0 : (⟨S32x2000x64, .f32⟩ : BufTy).Contents (Elt Ideal)) (x1 : (⟨S2000x32, .i32⟩ : BufTy).Contents (Elt Ideal))
    (x2 : (⟨S2000x32, .f32⟩ : BufTy).Contents (Elt Ideal)) (B : Fin 32) (n : Fin 2000) (k : Fin 32) :
    val_main_v10 (F := Ideal) x0 x1 x2 (ix3 B n (wlast k)) = val_main_v9 (F := Ideal) x0 x1 x2 (ix4 B n k (Fin.last 64)) := by
  rw [val_main_v10_apply]
  congr 1
  funext a; refine Fin.ext ?_
  have hB := B.isLt; have hn := n.isLt; have hk := k.isLt
  match a with
  | ⟨0, _⟩ => show ((B.val * 2000 + n.val) * 2080 + (k.val * 65 + 64)) / 4160000 = B.val; omega
  | ⟨1, _⟩ => show ((B.val * 2000 + n.val) * 2080 + (k.val * 65 + 64)) / 2080 % 2000 = n.val; omega
  | ⟨2, _⟩ => show ((B.val * 2000 + n.val) * 2080 + (k.val * 65 + 64)) / 65 % 32 = k.val; omega
  | ⟨3, _⟩ => show ((B.val * 2000 + n.val) * 2080 + (k.val * 65 + 64)) % 65 = 64; omega

/-- The gathered features at `(B, n, k, f)` are `x[B, J n k, f]` for the node `J n k` the table's word names, when the
    word is below 2000: the start index is the word, the word is its own signed value, and the clamp is `nodeOf`'s. -/
theorem v6_at (x0 : (⟨S32x2000x64, .f32⟩ : BufTy).Contents (Elt Ideal)) (x1 : (⟨S2000x32, .i32⟩ : BufTy).Contents (Elt Ideal))
    (B : Fin 32) (n : Fin 2000) (k : Fin 32) (f : Fin 64) (h : (x1 (ix2 n k)).toNat < 2000) :
    val_main_v6 (F := Ideal) x0 x1 (ix4 B n k f) = x0 (ix3 B (nodeOf x1 n k) f) := by
  unfold val_main_v6
  refine (gather_apply x0 (val_main_v5 (F := Ideal) x1) B n k f).trans ?_
  have e : (val_main_v5 (F := Ideal) x1 (ix3 n k (0 : Fin 1))).toInt.toNat = (x1 (ix2 n k)).toNat := by
    rw [v5_at x1 n k h, Predicate.toInt_eq_toNat_of_lt (by omega), Int.toNat_natCast]
  congr 2
  exact Fin.ext (congrArg (fun m => min m 1999) e)

/-- THE REFERENCE IS THE LAYER: with every table word below 2000, the reference's result is `G` of the arguments, the
    table read as node indices. Index by index: the contraction over the 2080 columns, split rank by rank, is `G`'s
    sum over ranks and features plus its sum over ranks of the distance terms, and the bias is added last. -/
theorem ref_eq
    (x0 : (⟨S32x2000x64, .f32⟩ : BufTy).Contents (Elt Ideal)) (x1 : (⟨S2000x32, .i32⟩ : BufTy).Contents (Elt Ideal))
    (x2 : (⟨S2000x32, .f32⟩ : BufTy).Contents (Elt Ideal)) (x3 : (⟨S128x2080, .f32⟩ : BufTy).Contents (Elt Ideal))
    (x4 : (⟨S128, .f32⟩ : BufTy).Contents (Elt Ideal))
    (h : ∀ (n : Fin 2000) (k : Fin 32), (x1 (ix2 n k)).toNat < 2000) :
    val_main_v14 (F := Ideal) x0 x1 x2 x3 x4 = Cert.Layer.G x0 (Cert.Layer.nodeOf x1) x2 x3 x4 := by
  funext i
  obtain ⟨B, n, o, rfl⟩ : ∃ B n o, i = ix3 B n o := ⟨_, _, _, eq_ix3 i⟩
  rw [val_main_v14_apply, val_main_v13_apply, val_main_v12_apply, val_main_v11_apply]
  have el : ∀ c : Fin 2080, lidx_main_v11 (ix3 B n o) c = ix3 B n c := fun c => by
    funext a; match a with | ⟨0, _⟩ => rfl | ⟨1, _⟩ => rfl | ⟨2, _⟩ => rfl
  have er : ∀ c : Fin 2080, ridx_main_v11 (ix3 B n o) c = ix2 o c := fun c => by
    funext a; match a with | ⟨0, _⟩ => rfl | ⟨1, _⟩ => rfl
  have eb : idx_main_v12 (idx_main_v13 (ix3 B n o)) = ix1 o := by
    funext a; match a with | ⟨0, _⟩ => rfl
  simp only [el, er, eb]
  rw [sum_cols]
  show _ + _ + _ = _ + _ + _
  congr 2
  · refine Finset.sum_congr rfl fun k _ => Finset.sum_congr rfl fun f _ => ?_
    rw [v10_wcol, v9_left, v6_at x0 x1 B n k f (h n k)]
  · refine Finset.sum_congr rfl fun k _ => ?_
    rw [v10_wlast, v9_right, v8_at]

end Cert.Layer.Ref

end
-- ==== Proof.PreRange.lean ====
/-
  From the printed precondition to the index range: when the precondition holds, every word of the neighbour
  table is, read as a natural number, below 2000. The precondition is a conjunction of six "all" reductions;
  the last two say that every word is at least 0 and below 2000 as a SIGNED word. A signed word that is at
  least 0 has its top bit clear, so its value is its signed value, and that is below 2000.
-/
import proofs.«421400_j16707422781891_1_alg».proof.Pre_finite_inputs
import proofs.«421400_j16707422781891_1_alg».proof.Proof.Spec
import Idealize.ShloMosaic.Lib.ReduceAll
import Idealize.ShloMosaic.Lib.StableHlo.Predicate
import Idealize.ShloMosaic.Lib.ValueIdx

namespace Cert.Layer.Pre

open Idealize.ShloMosaic Idealize.ShloMosaic.ValueIdx

/-- The shape with no axes has one index. -/
instance : Subsingleton Cert.Pre_finite_inputs.S_.Idx := ⟨fun a b => funext fun d => d.elim0⟩

theorem range_of_pre {F : FTy → Type} [FloatOps F] [Cert.Pre_finite_inputs.Facts]
    (a0 : FVec F Cert.Pre_finite_inputs.S32x2000x64 .f32) (a1 : IVec Cert.Pre_finite_inputs.S2000x32 32)
    (a2 : FVec F Cert.Pre_finite_inputs.S2000x32 .f32) (a3 : FVec F Cert.Pre_finite_inputs.S128x2080 .f32)
    (a4 : FVec F Cert.Pre_finite_inputs.S128 .f32)
    (h : Cert.Pre_finite_inputs.fn (F := F) a0 a1 a2 a3 a4 = fun _ => 1#1) :
    ∀ (n : Fin 2000) (k : Fin 32), (a1 (Idealize.ShloMosaic.ValueIdx.ix2 n k)).toNat < 2000 := by
  intro n k
  have h0 := congrFun h ValueIdx.ix0
  dsimp only [Cert.Pre_finite_inputs.fn, Cert.Pre_finite_inputs.fn_part1, andi] at h0
  obtain ⟨h1, hlt⟩ := IntOp.andi_eq_one.1 h0
  obtain ⟨_, hge⟩ := IntOp.andi_eq_one.1 h1
  have elt := Host.reduce_andi_all _ _ _ _ _ hlt (ix2 n k)
  have ege := Host.reduce_andi_all _ _ _ _ _ hge (ix2 n k)
  dsimp only [cmpi] at elt ege
  rw [StableHlo.Predicate.bcast_scalar _ Cert.Pre_finite_inputs.Facts.h_S_] at elt ege
  dsimp only [constantI] at elt ege
  rw [IntOp.cmpi_slt] at elt
  rw [IntOp.cmpi_sge] at ege
  have e0 : (0#32 : BitVec 32).toInt = 0 := by decide
  have e2000 : (2000#32 : BitVec 32).toInt = 2000 := by decide
  rw [e0] at ege
  rw [e2000] at elt
  rw [BitVec.toInt_eq_toNat_cond] at ege elt
  split at ege <;> omega

end Cert.Layer.Pre
-- ==== Proof.lean ====
/-
  The certificate of the graph layer: a one-hot-matmul kernel against a gather-and-einsum reference.

  THE LAYER. For a batch `B`, a node `n` and an output channel `o`,

    out[B, n, o] = Σ_k Σ_f x[B, nb[n, k], f] · W[o, 65 k + f]  +  Σ_k dist[n, k] · W[o, 65 k + 64]  +  b[o],

  over 32 neighbour ranks `k` and 64 features `f` (Proof/Spec.lean: `Cert.Layer.G`).

  THE REFERENCE gathers the neighbours' feature rows, appends the distance, flattens the 32 × 65 values of a node to
  2080 and contracts with `W`'s rows, then adds the bias (Proof/RefValue.lean: the contraction over 2080 columns split
  rank by rank, and 65 as 64 + 1).

  THE KERNEL never forms the gathered tensor: for each rank it multiplies the 0/1 matrix `[nb[r, k] = j]` into the
  batch's feature table, which picks row `nb[r, k]` of the table exactly (every other term of the sum is `0 · x = 0`
  on the extended reals), multiplies the picked rows into the rank's weight slab, and adds the 32 results up, then the
  distances' product and the bias (Proof/Body.lean: the body at an element; Proof/KernelValue.lean: from the blocks of
  the grid to the whole result). The weights the kernel multiplies by are re-laid copies of `W`'s columns
  (Proof/Prefix.lean), and every change of float format is the identity at the ideal values.

  So both programs compute `G`; between them there is only the order and grouping of a finite sum, which the extended
  reals' addition does not see. No finiteness of the float inputs is used.

  THE DOMAIN. The two programs agree where the neighbour table holds node indices, `0 ≤ nb[n, k] < 2000`: outside it the
  reference's gather clamps (or wraps a negative index) while the 0/1 matrix has an all-zero row. The precondition
  states that range, and Proof/PreRange.lean reads it off the printed predicate.

  The three frames are the generated ones (the reference's is its generated run with the result dropped); the ideal
  pass rewrote nothing, so `preserves` is trivial.
-/
import proofs.«421400_j16707422781891_1_alg».proof.Defs
import proofs.«421400_j16707422781891_1_alg».proof.Proof.Gen.Kernel
import proofs.«421400_j16707422781891_1_alg».proof.Proof.Gen.Kernel.Skeleton
import proofs.«421400_j16707422781891_1_alg».proof.Proof.Gen.Kernel.Launch
import proofs.«421400_j16707422781891_1_alg».proof.Proof.Gen.Kernel.Points
import proofs.«421400_j16707422781891_1_alg».proof.Proof.Gen.Kernel.Frame
import proofs.«421400_j16707422781891_1_alg».proof.Proof.Gen.KernelIdeal
import proofs.«421400_j16707422781891_1_alg».proof.Proof.Gen.KernelIdeal.Skeleton
import proofs.«421400_j16707422781891_1_alg».proof.Proof.Gen.KernelIdeal.Launch
import proofs.«421400_j16707422781891_1_alg».proof.Proof.Gen.KernelIdeal.Points
import proofs.«421400_j16707422781891_1_alg».proof.Proof.Gen.KernelIdeal.Frame
import proofs.«421400_j16707422781891_1_alg».proof.Proof.Gen.ReferenceIdeal
import proofs.«421400_j16707422781891_1_alg».proof.Proof.Gen.Pre_finite_inputs
import proofs.«421400_j16707422781891_1_alg».proof.Proof.Gen.KernelIdeal.Value
import proofs.«421400_j16707422781891_1_alg».proof.Proof.Gen.ReferenceIdeal.Run
import proofs.«421400_j16707422781891_1_alg».proof.Proof.Gen.ReferenceIdeal.Read
import proofs.«421400_j16707422781891_1_alg».proof.Proof.KernelValue
import proofs.«421400_j16707422781891_1_alg».proof.Proof.RefValue
import proofs.«421400_j16707422781891_1_alg».proof.Proof.PreRange
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel as printed runs and leaves its arguments: the generated frame. -/
theorem frame_k : Cert.frame_Kernel := fun m ρ _ => Cert.Kernel.Gen.frame m ρ

/-- The same program read at the ideal values. -/
theorem frame_ki : Cert.frame_KernelIdeal := fun m ρ _ => Cert.KernelIdeal.Gen.frame m ρ

/-- The reference runs and leaves its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, whose neighbour table is in range by the precondition, both programs end
    at the layer `G` of the arguments: the kernel by its blocks' values, the reference by its run read stage by stage. -/
theorem algebraic : Cert.algebraic_KernelIdeal_ReferenceIdeal := by
  intro m ρ m' ρ' hpre hagree
  have hr : ∀ (c : Dev Cert.KernelIdeal.nD) (n : Fin 2000) (k : Fin 32),
      ((m ((c : Thread Cert.KernelIdeal.nD Cert.KernelIdeal.τ).loc Cert.KernelIdeal.main_arg1)
        : Cert.KernelIdeal.S2000x32.Idx → BitVec 32) (ix2 n k)).toNat < 2000 :=
    fun c => Cert.Layer.Pre.range_of_pre _ _ _ _ _ (hpre c)
  refine ⟨fun c => Cert.Layer.Kernel.Gm m c, Cert.Layer.Kernel.run m ρ hr, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v14_eq _ _ _ _ _).trans (Cert.Layer.Ref.ref_eq _ _ _ _ _ (hr c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
